-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S_ : Shape := ⟨0, ![]⟩
abbrev S128x128 : Shape := ⟨2, ![128, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_v27 : IVec S_ 1) (main_v31 : IVec S640000 1) (main_v33 : IVec S640000 32) (main_c_11 : IVec S_ 32) : IVec S_ 1 :=
  let main_v34 : IVec S640000 32 := broadcastInDim S640000 ![] bcast_S_S640000 main_c_11
  let main_v35 : IVec S640000 1 := cmpi .slt main_v33 main_v34
  let main_v36 : IVec S640000 1 := andi main_v31 main_v35
  let main_c_12 : IVec S_ 1 := constantI S_ 1 1#1
  let main_v37 : IVec S_ 1 := (fun x v => Host.reduce IntOp.andi x v reducesTo_S640000_S_d0 h_S_) main_v36 main_c_12
  let main_v38 : IVec S_ 1 := andi main_v27 main_v37
  main_v38

def fn_part1 {F : FTy → Type} [FloatOps F] (main_arg4 : FVec F S128x128 .f32) (main_arg5 : FVec F S128 .f32) (main_arg6 : IVec S2x640000 32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg4
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : IVec S1x640000 32 := (extractStridedSlice S1x640000 ![0, 0] · slices_S2x640000_S1x640000_0_0) main_arg6
  let main_v29 : IVec S640000 32 := shapeCast S640000 main_v28 shapeCasts_S1x640000_S640000
  let main_c_10 : IVec S_ 32 := constantI S_ 32 0#32
  let main_v30 : IVec S640000 32 := broadcastInDim S640000 ![] bcast_S_S640000 main_c_10
  let main_v31 : IVec S640000 1 := cmpi .sge main_v29 main_v30
  let main_v32 : IVec S1x640000 32 := (extractStridedSlice S1x640000 ![0, 0] · slices_S2x640000_S1x640000_0_0) main_arg6
  let main_v33 : IVec S640000 32 := shapeCast S640000 main_v32 shapeCasts_S1x640000_S640000
  let main_c_11 : IVec S_ 32 := constantI S_ 32 10000#32
  fn_part2 (F := F) main_v27 main_v31 main_v33 main_c_11

def fn {F : FTy → Type} [FloatOps F] (main_arg0 : FVec F S10000x128 .f32) (main_arg1 : FVec F S_ .f32) (main_arg2 : FVec F S128x128 .f32) (main_arg3 : FVec F S128 .f32) (main_arg4 : FVec F S128x128 .f32) (main_arg5 : FVec F S128 .f32) (main_arg6 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_v12 main_v15 main_c_5
-- ==== Kernel.lean ====
abbrev S10000x128 : Shape := ⟨2, ![10000, 128]⟩
abbrev S_ : Shape := ⟨0, ![]⟩
abbrev S128x128 : Shape := ⟨2, ![128, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S2x320000x1 : Shape := ⟨3, ![2, 320000, 1]⟩
abbrev S10112x128 : Shape := ⟨2, ![10112, 128]⟩
abbrev S2x10112x128 : Shape := ⟨3, ![2, 10112, 128]⟩
abbrev S1x512x1 : Shape := ⟨3, ![1, 512, 1]⟩
abbrev S1x10112x128 : Shape := ⟨3, ![1, 10112, 128]⟩
abbrev S512x1 : Shape := ⟨2, ![512, 1]⟩
abbrev S1x10112 : Shape := ⟨2, ![1, 10112]⟩
abbrev S512x10112 : Shape := ⟨2, ![512, 10112]⟩
abbrev S512x128 : Shape := ⟨2, ![512, 128]⟩
abbrev S1x128 : Shape := ⟨2, ![1, 128]⟩

abbrev nBuf : Space → Nat
  | .hbm => 28
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S_, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S2x320000x1, .i32⟩
  | .hbm, ⟨12, _⟩ => ⟨S2x320000x1, .i32⟩
  | .hbm, ⟨13, _⟩ => ⟨S10000x128, .bf16⟩
  | .hbm, ⟨14, _⟩ => ⟨S_, .i32⟩
  | .hbm, ⟨15, _⟩ => ⟨S_, .bf16⟩
  | .hbm, ⟨16, _⟩ => ⟨S10112x128, .bf16⟩
  | .hbm, ⟨17, _⟩ => ⟨S2x10112x128, .f32⟩
  | .hbm, ⟨18, _⟩ => ⟨S_, .f32⟩
  | .hbm, ⟨19, _⟩ => ⟨S10112x128, .f32⟩
  | .hbm, ⟨20, _⟩ => ⟨S10000x128, .f32⟩
  | .hbm, ⟨21, _⟩ => ⟨S_, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S1x128, .f32⟩
  | .hbm, ⟨27, _⟩ => ⟨S10000x128, .f32⟩
  | .local _ .vmem, ⟨0, _⟩ => ⟨S10112x128, .bf16⟩
  | .local _ .vmem, ⟨1, _⟩ => ⟨S1x512x1, .i32⟩
  | .local _ .vmem, ⟨2, _⟩ => ⟨S1x512x1, .i32⟩
  | .local _ .vmem, ⟨3, _⟩ => ⟨S1x512x1, .i32⟩
  | .local _ .vmem, ⟨4, _⟩ => ⟨S1x512x1, .i32⟩
  | .local _ .vmem, ⟨5, _⟩ => ⟨S1x10112x128, .f32⟩
  | .local _ .vmem, ⟨6, _⟩ => ⟨S1x10112x128, .f32⟩
  | .local _ .vmem, ⟨7, _⟩ => ⟨S10000x128, .f32⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨2, ![2, 625], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10112x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10000x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000_S2x320000x1 : S640000.ShapeCasts S2x320000x1
  bitsLt_bf16_f32 : FTy.bits .bf16 < FTy.bits .f32
  pads_S10000x128_S10112x128_01120_000 : S10000x128.Pads (![0, 0] : Fin 2 → Nat) ![112, 0] ![0, 0] S10112x128
  h_S_ : 0 < S_.numel
  inb_S1x10112x128_S1x10112x128_0_0_0 : ∀ a, (![0, 0, 0] : Fin 3 → Nat) a + S1x10112x128.size a ≤ S1x10112x128.size a
  h_S1x10112x128 : 0 < S1x10112x128.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S1x10112_d1_w32 : S1x10112.Iotas .tc 32 [1]
  broadcasts_S512x1_S512x10112 : S512x1.Broadcasts S512x10112
  broadcasts_S1x10112_S512x10112 : S1x10112.Broadcasts S512x10112
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  shapeCasts_S1x10112x128_S10112x128 : S1x10112x128.ShapeCasts S10112x128
  shapeCasts_S10112x128_S1x10112x128 : S10112x128.ShapeCasts S1x10112x128
  reducesTo_S2x10112x128_S10112x128_d0 : S2x10112x128.ReducesTo [0] S10112x128
  slices_S10112x128_S10000x128_0_0 : S10112x128.Slices ![0, 0] S10000x128
  bcast_S_S10000x128 : S_.BroadcastsInDim S10000x128 (![] : Fin 0 → Fin S10000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S512x10112_S10112x128_S512x128_1_0_0_1_n_n_wf : DotDims.WF S512x10112 S10112x128 S512x128 [1] [0] [0] [1] [] []
  dot_S512x10112_S512x128_S10112x128_0_0_1_1_n_n_wf : DotDims.WF S512x10112 S512x128 S10112x128 [0] [0] [1] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10112x128.size a ≤ S10112x128.size a
  hwx0_0 : ∀ i : grid0.Coords, EltTy.bits .bf16 = 32 ∨ (Rect.block (s := S10112x128) S10112x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S2x320000x1.size a
  hwx0_1 : ∀ i : grid0.Coords, EltTy.bits .i32 = 32 ∨ (Rect.block (s := S2x320000x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S2x320000x1.size a
  hwx0_2 : ∀ i : grid0.Coords, EltTy.bits .i32 = 32 ∨ (Rect.block (s := S2x320000x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10112x128.size a ≤ S2x10112x128.size a
  hwx0_3 : ∀ i : grid0.Coords, EltTy.bits .f32 = 32 ∨ (Rect.block (s := S2x10112x128) S1x10112x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S10000x128.size a
  hwx1_6 : ∀ i : grid1.Coords, EltTy.bits .f32 = 32 ∨ (Rect.block (s := S10000x128) S10000x128.size (cc1_transform_6 i) (hinb1_6 i)).WholeWords (EltTy.packing .f32)

variable [Facts₀]

def dot_S512x10112_S10112x128_S512x128_1_0_0_1_n_n : DotDims S512x10112 S10112x128 S512x128 where
  lhsContracting := [1]
  rhsContracting := [0]
  lhsNonContracting := [0]
  rhsNonContracting := [1]
  lhsBatch := []
  rhsBatch := []
  wf := dot_S512x10112_S10112x128_S512x128_1_0_0_1_n_n_wf
def dot_S512x10112_S512x128_S10112x128_0_0_1_1_n_n : DotDims S512x10112 S512x128 S10112x128 where
  lhsContracting := [0]
  rhsContracting := [0]
  lhsNonContracting := [1]
  rhsNonContracting := [1]
  lhsBatch := []
  rhsBatch := []
  wf := dot_S512x10112_S512x128_S10112x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v7) S10112x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x10112x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S10000x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S_ : Shape := ⟨0, ![]⟩
abbrev S128x128 : Shape := ⟨2, ![128, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S_, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S10000x128, .f32⟩
  | .hbm, ⟨22, _⟩ => ⟨S640000x1, .i32⟩
  | .hbm, ⟨23, _⟩ => ⟨S10000x128, .f32⟩
  | .hbm, ⟨24, _⟩ => ⟨S_, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Region1.lean ====
/-
  The update kernel's result array. Its grid has one point and every window's block is its whole array, so the result
  array ends at the body's one store: the payload of the arrays the kernel is entered with.
-/
import proofs.«409381_j70987219469126_1_alg».proof.Proof.Gen.KernelIdeal.Frame
import Idealize.ShloMosaic.Lib.Pipeline.Value

set_option maxRecDepth 16384

noncomputable section

namespace Cert.Gin.K1

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

section AtEntry
variable (V : (c : Dev nD) → (b : Ref sig .tc) → Buf (Elt F) ((c : Thread nD τ).loc b))

/-- The payload of the six arrays the kernel is entered with. -/
abbrev G (c : Dev nD) : Vec F S10000x128 .f32 :=
  k1_pay1 (V c main_v13 : Vec F S10000x128 .f32) (V c main_v10 : Vec F S10000x128 .f32)
    (V c main_arg2 : Vec F S128x128 .f32) (V c main_v14 : Vec F S1x128 .f32)
    (V c main_arg4 : Vec F S128x128 .f32) (V c main_v15 : Vec F S1x128 .f32)

/-- Every window's block index is zero on every axis at the grid's one point. -/
theorem idx_zero : ∀ t : Fin cfg1.N,
    (∀ a, win1_0.index t a = 0) ∧ (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) :=
  (by decide +kernel : ∀ t : Fin grid1.N, _)

/-- Input window 0's block is its whole array. -/
theorem blk0 (c : Dev nD) (t : Fin cfg1.N) : (iblk1 V c 0 t : Vec F S10000x128 .f32) = V c main_v13 := by
  funext j
  unfold iblk1
  rw [View.read_apply]
  show V c main_v13 (((cfg1.win 0).blk t).view.emb j) = V c main_v13 j
  congr 1
  funext a; apply Fin.ext
  have h := (idx_zero t).1
  match a with
  | ⟨0, _⟩ => show win1_0.index t (0 : Fin 2) * 10000 + 1 * (j 0).val = (j 0).val; rw [h 0]; omega
  | ⟨1, _⟩ => show win1_0.index t (1 : Fin 2) * 128 + 1 * (j 1).val = (j 1).val; rw [h 1]; omega

/-- Input window 1's block is its whole array. -/
theorem blk1 (c : Dev nD) (t : Fin cfg1.N) : (iblk1 V c 1 t : Vec F S10000x128 .f32) = V c main_v10 := by
  funext j
  unfold iblk1
  rw [View.read_apply]
  show V c main_v10 (((cfg1.win 1).blk t).view.emb j) = V c main_v10 j
  congr 1
  funext a; apply Fin.ext
  have h := (idx_zero t).2.1
  match a with
  | ⟨0, _⟩ => show win1_1.index t (0 : Fin 2) * 10000 + 1 * (j 0).val = (j 0).val; rw [h 0]; omega
  | ⟨1, _⟩ => show win1_1.index t (1 : Fin 2) * 128 + 1 * (j 1).val = (j 1).val; rw [h 1]; omega

/-- Input window 2's block is its whole array. -/
theorem blk2 (c : Dev nD) (t : Fin cfg1.N) : (iblk1 V c 2 t : Vec F S128x128 .f32) = V c main_arg2 := by
  funext j
  unfold iblk1
  rw [View.read_apply]
  show V c main_arg2 (((cfg1.win 2).blk t).view.emb j) = V c main_arg2 j
  congr 1
  funext a; apply Fin.ext
  have h := (idx_zero t).2.2.1
  match a with
  | ⟨0, _⟩ => show win1_2.index t (0 : Fin 2) * 128 + 1 * (j 0).val = (j 0).val; rw [h 0]; omega
  | ⟨1, _⟩ => show win1_2.index t (1 : Fin 2) * 128 + 1 * (j 1).val = (j 1).val; rw [h 1]; omega

/-- Input window 3's block is its whole array. -/
theorem blk3 (c : Dev nD) (t : Fin cfg1.N) : (iblk1 V c 3 t : Vec F S1x128 .f32) = V c main_v14 := by
  funext j
  unfold iblk1
  rw [View.read_apply]
  show V c main_v14 (((cfg1.win 3).blk t).view.emb j) = V c main_v14 j
  congr 1
  funext a; apply Fin.ext
  have h := (idx_zero t).2.2.2.1
  match a with
  | ⟨0, _⟩ => show win1_3.index t (0 : Fin 2) * 1 + 1 * (j 0).val = (j 0).val; rw [h 0]; omega
  | ⟨1, _⟩ => show win1_3.index t (1 : Fin 2) * 128 + 1 * (j 1).val = (j 1).val; rw [h 1]; omega

/-- Input window 4's block is its whole array. -/
theorem blk4 (c : Dev nD) (t : Fin cfg1.N) : (iblk1 V c 4 t : Vec F S128x128 .f32) = V c main_arg4 := by
  funext j
  unfold iblk1
  rw [View.read_apply]
  show V c main_arg4 (((cfg1.win 4).blk t).view.emb j) = V c main_arg4 j
  congr 1
  funext a; apply Fin.ext
  have h := (idx_zero t).2.2.2.2.1
  match a with
  | ⟨0, _⟩ => show win1_4.index t (0 : Fin 2) * 128 + 1 * (j 0).val = (j 0).val; rw [h 0]; omega
  | ⟨1, _⟩ => show win1_4.index t (1 : Fin 2) * 128 + 1 * (j 1).val = (j 1).val; rw [h 1]; omega

/-- Input window 5's block is its whole array. -/
theorem blk5 (c : Dev nD) (t : Fin cfg1.N) : (iblk1 V c 5 t : Vec F S1x128 .f32) = V c main_v15 := by
  funext j
  unfold iblk1
  rw [View.read_apply]
  show V c main_v15 (((cfg1.win 5).blk t).view.emb j) = V c main_v15 j
  congr 1
  funext a; apply Fin.ext
  have h := (idx_zero t).2.2.2.2.2.1
  match a with
  | ⟨0, _⟩ => show win1_5.index t (0 : Fin 2) * 1 + 1 * (j 0).val = (j 0).val; rw [h 0]; omega
  | ⟨1, _⟩ => show win1_5.index t (1 : Fin 2) * 128 + 1 * (j 1).val = (j 1).val; rw [h 1]; omega

/-- What the one point writes back is the payload, read through the output's block. -/
theorem flushed_eq (c : Dev nD) (t : Fin cfg1.N) :
    (dat1 V c).flushed 6 t = ((cfg1.win 6).blk t).view.read (Elt F) (G V c) := by
  show (cfg1.win 6).cut (grid1.coords t) ((dat1 V c).after 6 t) = _
  rw [after1_6]
  unfold out1_6
  rw [View.canon_unit_zero hz2]
  simp only [View.ld_unit_zero (S := S10000x128) hz2, View.ld_unit_zero (S := S128x128) hz2, View.ld_unit_zero (S := S1x128) hz2]
  rw [blk0 V c t, blk1 V c t, blk2 V c t, blk3 V c t, blk4 V c t, blk5 V c t]
  funext j
  show G V c j = G V c (((cfg1.win 6).blk t).view.emb j)
  congr 1
  funext a; apply Fin.ext
  have h := (idx_zero t).2.2.2.2.2.2
  match a with
  | ⟨0, _⟩ => show (j 0).val = win1_6.index t (0 : Fin 2) * 10000 + 1 * (j 0).val; rw [h 0]; omega
  | ⟨1, _⟩ => show (j 1).val = win1_6.index t (1 : Fin 2) * 128 + 1 * (j 1).val; rw [h 1]; omega

/-- The one point's block is the whole result array. -/
theorem cover (i : S10000x128.Idx) :
    ∃ t : Fin cfg1.N, (cfg1.win 6).flush t = true ∧ i ∈ ((cfg1.win 6).blk t).view.set := by
  refine ⟨t1_0, flush1_6 t1_0, ?_⟩
  show i ∈ ((View.whole main_v16).slice (win1_6.rect t1_0)).set
  rw [View.set_slice_whole, Rect.mem_set_unit]
  intro a
  have h := (idx_zero t1_0).2.2.2.2.2.2
  have h0 : (i 0 : Nat) < 10000 := (i 0).isLt
  have h1 : (i 1 : Nat) < 128 := (i 1).isLt
  match a with
  | ⟨0, _⟩ => show win1_6.index t1_0 (0 : Fin 2) * 10000 ≤ (i 0 : Nat) ∧ (i 0 : Nat) < win1_6.index t1_0 (0 : Fin 2) * 10000 + 10000
              rw [h 0]; omega
  | ⟨1, _⟩ => show win1_6.index t1_0 (1 : Fin 2) * 128 ≤ (i 1 : Nat) ∧ (i 1 : Nat) < win1_6.index t1_0 (1 : Fin 2) * 128 + 128
              rw [h 1]; omega

/-- So the result array ends at the payload of the arrays the kernel is entered with. -/
theorem final (c : Dev nD) : (dat1 V c).arrAt 6 cfg1.N = G V c :=
  (dat1 V c).arrAt_eq_of_cover 6 (G V c) (fun t _ => flushed_eq V c t) cover

end AtEntry

variable (m : (ℓ : Loc nD τ sig) → Buf (Elt F) ℓ) (ρ : Dev nD → PrngReg)

/-- The program's result: the update's payload of the scaled features, the aggregate, and the two layers' weights and
    bias rows as the update kernel finds them. -/
theorem result_eq (c : Dev nD) :
    (W5 m ρ c (Proc.devRef .tc main_v16) : Vec F S10000x128 .f32)
      = k1_pay1 (V4 m ρ c main_v13 : Vec F S10000x128 .f32) (V4 m ρ c main_v10 : Vec F S10000x128 .f32)
          (V4 m ρ c main_arg2 : Vec F S128x128 .f32) (V4 m ρ c main_v14 : Vec F S1x128 .f32)
          (V4 m ρ c main_arg4 : Vec F S128x128 .f32) (V4 m ρ c main_v15 : Vec F S1x128 .f32) :=
  (W5_arr m ρ c 6).trans (final (V4 m ρ) c)

end Cert.Gin.K1

end
-- ==== Proof.Spec.lean ====
/-
  One layer of a graph isomorphism network, as ONE function of its arguments.

  The arguments: node features x (10000 nodes, 128 features), a scalar eps, two 128 x 128 weight matrices with their
  bias rows, and an edge list (row 0 the source node of each of the 640000 edges, row 1 its destination).

  Node n receives the sum of the feature rows of the sources of the edges that point at it; an edge whose destination
  word, read signed, is no node contributes to no node. The source word is read signed and clamped into the table
  (for a word already in range that is the word itself). The layer then adds (1 + eps) x and applies two dense
  layers, each a matrix product plus a bias row followed by the maximum with zero.
-/
import Idealize.ShloMosaic.PureOps.Ideal.Laws
import Idealize.ShloMosaic.Lib.ValueIdx

noncomputable section

open scoped BigOperators

namespace Cert.Gin

open Idealize.ShloMosaic Idealize.ShloMosaic.ValueIdx

/-- Node features: 10000 rows of 128. -/
abbrev Nodes : Shape := ⟨2, ![10000, 128]⟩
/-- A weight matrix. -/
abbrev Sq : Shape := ⟨2, ![128, 128]⟩
/-- A bias row. -/
abbrev Row : Shape := ⟨1, ![128]⟩
/-- A scalar. -/
abbrev Sc : Shape := ⟨0, ![]⟩
/-- The edge list: row 0 sources, row 1 destinations. -/
abbrev Edges : Shape := ⟨2, ![2, 640000]⟩

/-- Edge e's source row: its source word read signed, clamped into [0, 9999]. -/
def srcRow (ei : IVec Edges 32) (e : Fin 640000) : Fin 10000 :=
  ⟨min (ei (ix2 (0 : Fin 2) e)).toInt.toNat 9999, by omega⟩

/-- Edge e's destination, read signed. -/
def dstInt (ei : IVec Edges 32) (e : Fin 640000) : ℤ := (ei (ix2 (1 : Fin 2) e)).toInt

/-- The neighbour sum at node n, feature d: the source rows of the edges whose destination is n. -/
def nbrSum (x : Nodes.Idx → EReal) (ei : IVec Edges 32) (n : Fin 10000) (d : Fin 128) : EReal :=
  ∑ e : Fin 640000, if dstInt ei e = (n.val : ℤ) then x (ix2 (srcRow ei e) d) else 0

/-- (1 + eps) x plus the neighbour sum. -/
def combined (x : Nodes.Idx → EReal) (eps : Sc.Idx → EReal) (ei : IVec Edges 32) (n : Fin 10000) (d : Fin 128) : EReal :=
  (Ideal.ofBits .f32 0x3F800000#32 + eps ix0) * x (ix2 n d) + nbrSum x ei n d

/-- A dense layer at (n, q): the row of h against column q of W, plus the bias, cut below at zero. -/
def dense (h : Fin 10000 → Fin 128 → EReal) (W : Sq.Idx → EReal) (b : Fin 128 → EReal) (n : Fin 10000) (q : Fin 128) : EReal :=
  max ((∑ k : Fin 128, h n k * W (ix2 k q)) + b q) (Ideal.ofBits .f32 0x00000000#32)

/-- The layer's result at (n, q). -/
def outAt (x : Nodes.Idx → EReal) (eps : Sc.Idx → EReal) (W1 : Sq.Idx → EReal) (b1 : Row.Idx → EReal)
    (W2 : Sq.Idx → EReal) (b2 : Row.Idx → EReal) (ei : IVec Edges 32) (n : Fin 10000) (q : Fin 128) : EReal :=
  dense (dense (combined x eps ei) W1 (fun j => b1 (ix1 j))) W2 (fun j => b2 (ix1 j)) n q

/-- The layer's result array. -/
def out (x : Nodes.Idx → EReal) (eps : Sc.Idx → EReal) (W1 : Sq.Idx → EReal) (b1 : Row.Idx → EReal)
    (W2 : Sq.Idx → EReal) (b2 : Row.Idx → EReal) (ei : IVec Edges 32) : Nodes.Idx → EReal :=
  fun i => outAt x eps W1 b1 W2 b2 ei (i 0) (i 1)

theorem out_apply (x : Nodes.Idx → EReal) (eps : Sc.Idx → EReal) (W1 : Sq.Idx → EReal) (b1 : Row.Idx → EReal)
    (W2 : Sq.Idx → EReal) (b2 : Row.Idx → EReal) (ei : IVec Edges 32) (n : Fin 10000) (q : Fin 128) :
    out x eps W1 b1 W2 b2 ei (ix2 n q) = outAt x eps W1 b1 W2 b2 ei n q := rfl

/-- The source words are node numbers: every one, read signed, lies in [0, 10000). -/
def SrcInRange (ei : IVec Edges 32) : Prop :=
  ∀ e : Fin 640000, 0 ≤ (ei (ix2 (0 : Fin 2) e)).toInt ∧ (ei (ix2 (0 : Fin 2) e)).toInt < 10000

/-- For a source word in range the clamp is the word. -/
theorem srcRow_val (ei : IVec Edges 32) (h : SrcInRange ei) (e : Fin 640000) :
    ((srcRow ei e).val : ℤ) = (ei (ix2 (0 : Fin 2) e)).toInt := by
  have := h e
  show ((min (ei (ix2 (0 : Fin 2) e)).toInt.toNat 9999 : ℕ) : ℤ) = _
  omega

end Cert.Gin

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Region1Math.lean ====
/-
  The update kernel's one store, read at an index over the extended reals: two dense layers over the sum of its first
  two operands. Each matrix product goes into a zero accumulator, so at (n, q) it is the sum over k of the row entry
  times the column entry; a bias row of shape 1 x 128 is read at (0, q); the cut below at zero is the maximum with the
  zero literal.
-/
import proofs.«409381_j70987219469126_1_alg».proof.Proof.Gen.KernelIdeal.Skeleton
import proofs.«409381_j70987219469126_1_alg».proof.Proof.Spec
import proofs.«409381_j70987219469126_1_alg».proof.Proof.LibMatmul
import Idealize.ShloMosaic.Lib.Pipeline.Value
import Idealize.ShloMosaic.Lib.ValueLayout

noncomputable section

open scoped BigOperators

namespace Cert.Gin.K1

open Cert.KernelIdeal Cert.KernelIdeal.Gen Idealize.ShloMosaic Idealize.ShloMosaic.ValueIdx

/-- The dimension numbers of the two products are the plain M x K by K x N ones: the same axis lists. -/
private theorem dot_eq_plain :
    dot_S10000x128_S128x128_S10000x128_1_0_0_1_n_n = DotDims.plain 10000 128 128 := rfl

/-- One dense layer as the kernel writes it, read at (a, c): the product into the zero accumulator is the sum over k of
    the row entry times the column entry, the broadcast bias row is read at (0, c), and the maximum with the splat of
    the zero literal is the maximum with that literal. -/
private theorem layer_apply (h : FVec Ideal S10000x128 .f32) (W : FVec Ideal S128x128 .f32) (b : FVec Ideal S1x128 .f32)
    (a : Fin 10000) (c : Fin 128) :
    maximumf
        (addf (matmul dot_S10000x128_S128x128_S10000x128_1_0_0_1_n_n none h W (constant S10000x128 .f32 0x00000000#32))
          (broadcastTo S10000x128 (shapeCast S1x128 b shapeCasts_S1x128_S1x128) broadcasts_S1x128_S10000x128))
        (broadcast S10000x128 (Scalar.ofBits (F := Ideal) .f32 0x00000000#32)) (ix2 a c)
      = max ((∑ k : Fin 128, h (ix2 a k) * W (ix2 k c)) + b (ix2 (0 : Fin 1) c)) (Ideal.ofBits .f32 0x00000000#32) := by
  rw [maximumf_apply, addf_apply, broadcast_apply, shapeCast_self, dot_eq_plain]
  rw [broadcastTo_1b_ab_apply b broadcasts_S1x128_S10000x128 a c]
  rw [show (matmul (DotDims.plain 10000 128 128) none h W (constant S10000x128 .f32 0x00000000#32)) (ix2 a c)
        = ∑ k : Fin 128, h (ix2 a k) * W (ix2 k c) from Cert.Matmul.matmul_plain_apply none h W a c]
  rfl

/-- The store's payload at (n, q). -/
theorem mlp_apply (v0 v2 : Vec Ideal S10000x128 .f32) (v5 : Vec Ideal S128x128 .f32) (v7 : Vec Ideal S1x128 .f32)
    (v13 : Vec Ideal S128x128 .f32) (v15 : Vec Ideal S1x128 .f32) (n : Fin 10000) (q : Fin 128) :
    k1_pay1 (F := Ideal) v0 v2 v5 v7 v13 v15 (ix2 n q)
      = Cert.Gin.dense (Cert.Gin.dense (fun a d => v0 (ix2 a d) + v2 (ix2 a d)) v5 (fun j => v7 (ix2 (0 : Fin 1) j)))
          v13 (fun j => v15 (ix2 (0 : Fin 1) j)) n q := by
  unfold k1_pay1 Cert.Gin.dense
  rw [layer_apply]
  congr 2
  refine Finset.sum_congr rfl fun k _ => ?_
  rw [layer_apply, shapeCast_self, shapeCast_self]
  rfl

end Cert.Gin.K1

end
-- ==== Proof.AggMath.lean ====
/-
  The aggregation as the kernel computes it, and why it is the neighbour sum.

  The kernel walks the edges in 2 parts of 625 chunks of 512. For a chunk it compares every destination word with every
  row number n < 10112 and every source word with every row number m < 10112 (the table padded with 112 zero rows), and
  forms, at (n, d), the sum over the chunk's edges e of [dst e = n] times the sum over m of [src e = m] x_pad (m, d).
  A source word that is a node number selects exactly its own row, so the inner sum is that row; summing the chunks
  and the parts walks every edge once.
-/
import proofs.«409381_j70987219469126_1_alg».proof.Proof.Spec

noncomputable section

open scoped BigOperators

namespace Cert.Gin

open Idealize.ShloMosaic Idealize.ShloMosaic.ValueIdx

/-- The comparison of a word with a row number, as a number: 1 when the word is that number's 32-bit word, else 0. -/
def hot (w : BitVec 32) (n : ℕ) : EReal := if w = BitVec.ofNat 32 n then 1 else 0

/-- One chunk of 512 edges at (n, d): the padded table's rows selected by the source words, summed into the rows the
    destination words select. -/
def chunk (srcw dstw : Fin 512 → BitVec 32) (xp : Fin 10112 → Fin 128 → EReal) (n : Fin 10112) (d : Fin 128) : EReal :=
  ∑ e : Fin 512, hot (dstw e) n.val * ∑ m : Fin 10112, hot (srcw e) m.val * xp m d

/-- The table padded with 112 zero rows. -/
def xpad (x : Nodes.Idx → EReal) (m : Fin 10112) (d : Fin 128) : EReal :=
  if h : m.val < 10000 then x (ix2 (⟨m.val, h⟩ : Fin 10000) d) else 0

/-- Edge e of chunk k of part p. -/
def edge (p : Fin 2) (k : Fin 625) (e : Fin 512) : Fin 640000 :=
  ⟨p.val * 320000 + k.val * 512 + e.val, by have := p.isLt; have := k.isLt; have := e.isLt; omega⟩

/-- Chunk k of part p of the edge list, at (n, d). -/
def chunkOf (x : Nodes.Idx → EReal) (ei : IVec Edges 32) (p : Fin 2) (k : Fin 625) (n : Fin 10112) (d : Fin 128) : EReal :=
  chunk (fun e => ei (ix2 (0 : Fin 2) (edge p k e))) (fun e => ei (ix2 (1 : Fin 2) (edge p k e))) (xpad x) n d

/-- The kernel's aggregate at (n, d): the parts' sums of their chunks. -/
def kernelAgg (x : Nodes.Idx → EReal) (ei : IVec Edges 32) (n : Fin 10112) (d : Fin 128) : EReal :=
  ∑ p : Fin 2, ∑ k : Fin 625, chunkOf x ei p k n d

/-- A 32-bit word equals the word of a number n below 2^31 exactly when, read signed, it is n: the signed reading of
    the word of n is n itself, and the signed reading determines the word. -/
private theorem eq_ofNat_iff (w : BitVec 32) (n : ℕ) (hn : n < 2 ^ 31) :
    w = BitVec.ofNat 32 n ↔ w.toInt = (n : ℤ) := by
  have hsm : (BitVec.ofNat 32 n).toInt = (n : ℤ) := by
    rw [BitVec.toInt_eq_msb_cond,
      BitVec.msb_eq_false_iff_two_mul_lt.mpr (by simp [BitVec.toNat_ofNat]; omega)]
    simp [BitVec.toNat_ofNat]; omega
  constructor
  · rintro rfl; exact hsm
  · intro hw; exact BitVec.eq_of_toInt_eq (by rw [hw, hsm])

/-- The comparison with a row number, by the word's signed reading. -/
private theorem hot_eq (w : BitVec 32) (n : ℕ) (hn : n < 2 ^ 31) :
    hot w n = if w.toInt = (n : ℤ) then 1 else 0 := by
  unfold hot
  simp only [eq_ofNat_iff w n hn]

/-- A source word that is a node number r selects, among the padded table's rows, exactly row r. -/
private theorem select_row (x : Nodes.Idx → EReal) (w : BitVec 32) (r : Fin 10000) (hw : w.toInt = (r.val : ℤ))
    (d : Fin 128) :
    ∑ m : Fin 10112, hot w m.val * xpad x m d = x (ix2 r d) := by
  have hr := r.isLt
  rw [Finset.sum_eq_single (⟨r.val, by omega⟩ : Fin 10112)]
  · rw [hot_eq w r.val (by omega), if_pos hw, one_mul]
    unfold xpad
    rw [dif_pos hr]
  · intro m _ hm
    have hm' := m.isLt
    rw [hot_eq w m.val (by omega), if_neg, zero_mul]
    intro hwm
    apply hm
    apply Fin.ext
    show m.val = r.val
    omega
  · intro hnm; exact absurd (Finset.mem_univ _) hnm

/-- The edges as triples (part, chunk, place in the chunk): every edge number is p * 320000 + k * 512 + e for exactly
    one triple, found by division with remainder. -/
private def edgeEquiv : Fin 2 × Fin 625 × Fin 512 ≃ Fin 640000 where
  toFun t := edge t.1 t.2.1 t.2.2
  invFun i := (⟨i.val / 320000, by have := i.isLt; omega⟩, ⟨i.val % 320000 / 512, by have := i.isLt; omega⟩,
    ⟨i.val % 512, by omega⟩)
  left_inv := by
    rintro ⟨p, k, e⟩
    have := p.isLt; have := k.isLt; have := e.isLt
    refine Prod.ext (Fin.ext ?_) (Prod.ext (Fin.ext ?_) (Fin.ext ?_)) <;>
      simp only [edge] <;> omega
  right_inv := by
    intro i
    have := i.isLt
    apply Fin.ext
    simp only [edge]
    omega

/-- Summing over the parts, their chunks and the chunks' places walks every edge once. -/
private theorem sum_edges (f : Fin 640000 → EReal) :
    ∑ p : Fin 2, ∑ k : Fin 625, ∑ e : Fin 512, f (edge p k e) = ∑ i : Fin 640000, f i := by
  rw [← Equiv.sum_comp edgeEquiv f, Fintype.sum_prod_type]
  refine Finset.sum_congr rfl fun p _ => ?_
  rw [Fintype.sum_prod_type]
  rfl

/-- With every source word a node number, the kernel's aggregate at a node is the neighbour sum. -/
theorem kernelAgg_eq (x : Nodes.Idx → EReal) (ei : IVec Edges 32) (h : SrcInRange ei) (n : Fin 10000) (d : Fin 128) :
    kernelAgg x ei ⟨n.val, by have := n.isLt; omega⟩ d = nbrSum x ei n d := by
  have hn := n.isLt
  unfold kernelAgg nbrSum chunkOf chunk
  rw [← sum_edges]
  refine Finset.sum_congr rfl fun p _ => Finset.sum_congr rfl fun k _ => Finset.sum_congr rfl fun e _ => ?_
  rw [select_row x _ (srcRow ei (edge p k e)) (srcRow_val ei h (edge p k e)).symm d,
    hot_eq _ n.val (by omega)]
  unfold dstInt
  split_ifs
  · rw [one_mul]
  · rw [zero_mul]

end Cert.Gin

end
-- ==== Proof.Region0Math.lean ====
/-
  The aggregation kernel's two stores, read at an index over the extended reals.

  The reset stores zero. The update stores, at (0, n, d), what the block held there plus one chunk: the destination words
  compared with n select, among the chunk's 512 edges, those pointing at row n; for each the source word compared with every
  row number m selects a row of the padded table. The comparisons become 0 or 1 through a one-bit word widened and
  converted; the narrowing to bf16 and back is the identity on the extended reals.
-/
import proofs.«409381_j70987219469126_1_alg».proof.Proof.Gen.KernelIdeal.Skeleton
import proofs.«409381_j70987219469126_1_alg».proof.Proof.AggMath
import proofs.«409381_j70987219469126_1_alg».proof.Proof.LibMatmul
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.Gin.K0

open Cert.KernelIdeal Cert.KernelIdeal.Gen Idealize.ShloMosaic Idealize.ShloMosaic.ValueIdx

/-! ## A column broadcast over many columns -/

/-- An [a, 1] column broadcast to [a, b] reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The comparison of two words as a number -/

/-- The bit of an equality test, widened to 32 bits and converted, is 1 when the words are equal and 0 when not. -/
private theorem sitofp_eq_bit (a b : BitVec 32) :
    FloatOps.sitofp (F := Ideal) .f32 ((IntOp.cmpi .eq a b).setWidth 32) = if a = b then (1 : EReal) else 0 := by
  by_cases h : a = b
  · have hb : IntOp.cmpi .eq a b = 1#1 := StableHlo.Predicate.cmpi_eq_iff.mpr h
    rw [if_pos h, hb]
    show (((((1#1 : BitVec 1).setWidth 32).toInt : ℤ) : ℝ) : EReal) = 1
    rw [show ((1#1 : BitVec 1).setWidth 32).toInt = 1 by decide]
    simp
  · have hb : IntOp.cmpi .eq a b = 0#1 := eq_zero_of_ne_one fun h1 => h (StableHlo.Predicate.cmpi_eq_iff.mp h1)
    rw [if_neg h, hb]
    show (((((0#1 : BitVec 1).setWidth 32).toInt : ℤ) : ℝ) : EReal) = 0
    rw [show ((0#1 : BitVec 1).setWidth 32).toInt = 0 by decide]
    simp

/-- The comparison matrix of a column of 512 words against the row numbers below 10112. -/
private def sel (v : Vec Ideal S1x512x1 .i32) : FVec Ideal S512x10112 .bf16 :=
  truncf .bf16 (sitofp .f32 (extui 32 (cmpi .eq
    (broadcastTo S512x10112 (shapeCast S512x1 v shapeCasts_S1x512x1_S512x1) broadcasts_S512x1_S512x10112)
    (broadcastTo S512x10112 (iota .tc S1x10112 32 [1] iota_S1x10112_d1_w32) broadcasts_S1x10112_S512x10112)) natLt_1_32)
    : FVec Ideal S512x10112 .f32) bitsLt_bf16_f32

/-- Its entry (e, m): 1 when word e is the word of m, else 0. -/
private theorem sel_apply (v : Vec Ideal S1x512x1 .i32) (e : Fin 512) (m : Fin 10112) :
    sel v (ix2 e m) = Cert.Gin.hot (v (ix3 (0 : Fin 1) e (0 : Fin 1))) m.val := by
  have h1 : broadcastTo S512x10112 (shapeCast S512x1 v shapeCasts_S1x512x1_S512x1) broadcasts_S512x1_S512x10112 (ix2 e m)
      = v (ix3 (0 : Fin 1) e (0 : Fin 1)) := by
    rw [broadcastTo_a1_ab_apply, shapeCast_1ab_ab_apply]
  have h2 : broadcastTo S512x10112 (iota .tc S1x10112 32 [1] iota_S1x10112_d1_w32) broadcasts_S1x10112_S512x10112 (ix2 e m)
      = BitVec.ofNat 32 m.val := by
    rw [broadcastTo_1b_ab_apply, iota_single_apply]
  show FloatOps.sitofp (F := Ideal) .f32 ((IntOp.cmpi .eq
      (broadcastTo S512x10112 (shapeCast S512x1 v shapeCasts_S1x512x1_S512x1) broadcasts_S512x1_S512x10112 (ix2 e m))
      (broadcastTo S512x10112 (iota .tc S1x10112 32 [1] iota_S1x10112_d1_w32) broadcasts_S1x10112_S512x10112 (ix2 e m))).setWidth 32) = _
  rw [h1, h2, sitofp_eq_bit]
  rfl

/-! ## The two products -/

/-- The first product, the comparison matrix of the source words by the table, into zero: at (e, d) the sum over the rows. -/
private theorem matmul1_apply (l : FVec Ideal S512x10112 .bf16) (r : FVec Ideal S10112x128 .bf16) (e : Fin 512) (d : Fin 128) :
    matmul dot_S512x10112_S10112x128_S512x128_1_0_0_1_n_n none l r (constant (F := Ideal) S512x128 .f32 0x00000000#32) (ix2 e d)
      = ∑ m : Fin 10112, l (ix2 e m) * r (ix2 m d) :=
  Cert.Matmul.matmul_plain_apply (M := 512) (K := 10112) (N := 128) none l r e d

/-- The left operand of the second product is read transposed: its axis 0 is the contracted one … -/
private theorem lhs_scatter_0 (i : S10112x128.Idx) (q : dot_S512x10112_S512x128_S10112x128_0_0_1_1_n_n.contr.Idx) :
    (dot_S512x10112_S512x128_S10112x128_0_0_1_1_n_n.lhsIdx i q 0).val = (q ⟨0, by decide⟩).val :=
  dot_S512x10112_S512x128_S10112x128_0_0_1_1_n_n.lhsIdx_val_of_single rfl i q
/-- … and its axis 1 the result's row. -/
private theorem lhs_scatter_1 (i : S10112x128.Idx) (q : dot_S512x10112_S512x128_S10112x128_0_0_1_1_n_n.contr.Idx) :
    (dot_S512x10112_S512x128_S10112x128_0_0_1_1_n_n.lhsIdx i q 1).val = (i 0).val := by
  unfold DotDims.lhsIdx
  rw [dif_neg (show ¬(1 : Fin S512x10112.rank) ∈ dot_S512x10112_S512x128_S10112x128_0_0_1_1_n_n.lhsBatch by decide), dif_pos (show (1 : Fin S512x10112.rank) ∈ dot_S512x10112_S512x128_S10112x128_0_0_1_1_n_n.lhsNonContracting by decide)]
  rfl
/-- The right operand's axis 0 is the contracted one … -/
private theorem rhs_scatter_0 (i : S10112x128.Idx) (q : dot_S512x10112_S512x128_S10112x128_0_0_1_1_n_n.contr.Idx) :
    (dot_S512x10112_S512x128_S10112x128_0_0_1_1_n_n.rhsIdx i q 0).val = (q ⟨0, by decide⟩).val :=
  dot_S512x10112_S512x128_S10112x128_0_0_1_1_n_n.rhsIdx_val_of_single rfl i q
/-- … and its axis 1 the result's column. -/
private theorem rhs_scatter_1 (i : S10112x128.Idx) (q : dot_S512x10112_S512x128_S10112x128_0_0_1_1_n_n.contr.Idx) :
    (dot_S512x10112_S512x128_S10112x128_0_0_1_1_n_n.rhsIdx i q 1).val = (i 1).val := by
  unfold DotDims.rhsIdx
  rw [dif_neg (show ¬(1 : Fin S512x128.rank) ∈ dot_S512x10112_S512x128_S10112x128_0_0_1_1_n_n.rhsBatch by decide), dif_pos (show (1 : Fin S512x128.rank) ∈ dot_S512x10112_S512x128_S10112x128_0_0_1_1_n_n.rhsNonContracting by decide)]
  rfl

/-- The second product contracts the edge axis of both operands: at (n, d) the sum over the edges e of the left operand at
    (e, n) times the right operand at (e, d). -/
private theorem matmul2_apply (l : FVec Ideal S512x10112 .bf16) (r : FVec Ideal S512x128 .bf16) (n : Fin 10112) (d : Fin 128) :
    matmul dot_S512x10112_S512x128_S10112x128_0_0_1_1_n_n none l r (constant (F := Ideal) S10112x128 .f32 0x00000000#32) (ix2 n d)
      = ∑ e : Fin 512, l (ix2 e n) * r (ix2 e d) := by
  show FloatOps.matmul dot_S512x10112_S512x128_S10112x128_0_0_1_1_n_n none l r (constant (F := Ideal) S10112x128 .f32 0x00000000#32) (ix2 n d) = _
  rw [Ideal.matmul_constant_zero_apply, ← Equiv.sum_comp (contrEquiv1 dot_S512x10112_S512x128_S10112x128_0_0_1_1_n_n 512 rfl rfl).symm]
  refine Finset.sum_congr rfl fun e _ => ?_
  have hk := contrEquiv1_symm_val dot_S512x10112_S512x128_S10112x128_0_0_1_1_n_n 512 rfl rfl e
  have el : dot_S512x10112_S512x128_S10112x128_0_0_1_1_n_n.lhsIdx (ix2 n d) ((contrEquiv1 dot_S512x10112_S512x128_S10112x128_0_0_1_1_n_n 512 rfl rfl).symm e) = ix2 e n := funext fun a => Fin.ext (by
    match a with
    | ⟨0, _⟩ => exact (lhs_scatter_0 _ _).trans hk
    | ⟨1, _⟩ => exact lhs_scatter_1 _ _)
  have er : dot_S512x10112_S512x128_S10112x128_0_0_1_1_n_n.rhsIdx (ix2 n d) ((contrEquiv1 dot_S512x10112_S512x128_S10112x128_0_0_1_1_n_n 512 rfl rfl).symm e) = ix2 e d := funext fun a => Fin.ext (by
    match a with
    | ⟨0, _⟩ => exact (rhs_scatter_0 _ _).trans hk
    | ⟨1, _⟩ => exact rhs_scatter_1 _ _)
  rw [el, er]

/-! ## The chunk -/

/-- The rows the source words select, narrowed: 512 rows of 128. -/
private def gathered (v3 : Vec Ideal S1x512x1 .i32) (v20 : Vec Ideal S10112x128 .bf16) : FVec Ideal S512x128 .bf16 :=
  truncf .bf16 (matmul dot_S512x10112_S10112x128_S512x128_1_0_0_1_n_n none (sel v3)
    (shapeCast S10112x128 v20 shapeCasts_S10112x128_S10112x128 : FVec Ideal S10112x128 .bf16)
    (constant (F := Ideal) S512x128 .f32 0x00000000#32)) bitsLt_bf16_f32

/-- At (e, d): the sum over the rows m of [source word e is m] times the table at (m, d). -/
private theorem gathered_apply (v3 : Vec Ideal S1x512x1 .i32) (v20 : Vec Ideal S10112x128 .bf16) (e : Fin 512) (d : Fin 128) :
    gathered v3 v20 (ix2 e d)
      = ∑ m : Fin 10112, Cert.Gin.hot (v3 (ix3 (0 : Fin 1) e (0 : Fin 1))) m.val * v20 (ix2 m d) := by
  unfold gathered
  rw [truncf_apply, shapeCast_self, matmul1_apply]
  exact Finset.sum_congr rfl fun m _ => by rw [sel_apply]

/-- The selected rows summed into the rows the destination words select: 10112 rows of 128. -/
private def scattered (v3 v5 : Vec Ideal S1x512x1 .i32) (v20 : Vec Ideal S10112x128 .bf16) : FVec Ideal S10112x128 .f32 :=
  matmul dot_S512x10112_S512x128_S10112x128_0_0_1_1_n_n none (sel v5) (gathered v3 v20)
    (constant (F := Ideal) S10112x128 .f32 0x00000000#32)

/-- At (n, d) it is the chunk. -/
private theorem scattered_apply (v3 v5 : Vec Ideal S1x512x1 .i32) (v20 : Vec Ideal S10112x128 .bf16) (n : Fin 10112) (d : Fin 128) :
    scattered v3 v5 v20 (ix2 n d)
      = Cert.Gin.chunk (fun e => v3 (ix3 (0 : Fin 1) e (0 : Fin 1))) (fun e => v5 (ix3 (0 : Fin 1) e (0 : Fin 1)))
          (fun m d' => v20 (ix2 m d')) n d := by
  unfold scattered Cert.Gin.chunk
  rw [matmul2_apply]
  exact Finset.sum_congr rfl fun e _ => by rw [sel_apply, gathered_apply]

/-- The reset's payload is zero everywhere. -/
theorem reset_apply (n : Fin 10112) (d : Fin 128) :
    k0_pay1 (F := Ideal) (ix3 (0 : Fin 1) n d) = 0 := by
  show Ideal.ofBits .f32 0x00000000#32 = 0
  exact Ideal.ofBits_zero_f32

/-- The update's payload at (0, n, d): the carried block there plus the chunk of the loaded words and table. -/
theorem update_apply (v3 v5 : Vec Ideal S1x512x1 .i32) (v20 : Vec Ideal S10112x128 .bf16) (v25 : Vec Ideal S1x10112x128 .f32)
    (n : Fin 10112) (d : Fin 128) :
    k0_pay2 (F := Ideal) v3 v5 v20 v25 (ix3 (0 : Fin 1) n d)
      = v25 (ix3 (0 : Fin 1) n d)
        + Cert.Gin.chunk (fun e => v3 (ix3 (0 : Fin 1) e (0 : Fin 1))) (fun e => v5 (ix3 (0 : Fin 1) e (0 : Fin 1)))
            (fun m d' => v20 (ix2 m d')) n d := by
  have hpay : k0_pay2 (F := Ideal) v3 v5 v20 v25
      = shapeCast S1x10112x128 (addf (shapeCast S10112x128 v25 shapeCasts_S1x10112x128_S10112x128) (scattered v3 v5 v20))
          shapeCasts_S10112x128_S1x10112x128 := rfl
  rw [hpay, shapeCast_ab_1ab_apply, addf_apply, shapeCast_1ab_ab_apply, scattered_apply]

end Cert.Gin.K0

end
-- ==== Proof.Region0Acc.lean ====
/-
  What the aggregation kernel's output block holds after each grid point.

  The grid is 2 parts by 625 chunks; point p * 625 + k works on chunk k of part p. At a part's first chunk the body
  resets the block to zero and adds the chunk; at every other chunk it adds the chunk to what the point before left. So
  after chunk k of part p the block holds the sum of that part's chunks 0 … k, and after the part's last chunk the sum of
  all 625.
-/
import proofs.«409381_j70987219469126_1_alg».proof.Proof.Gen.KernelIdeal.Frame
import proofs.«409381_j70987219469126_1_alg».proof.Proof.Region0Math

set_option maxRecDepth 16384

noncomputable section

open scoped BigOperators

namespace Cert.Gin.K0

open Cert.KernelIdeal Cert.KernelIdeal.Gen Idealize.ShloMosaic Idealize.ShloMosaic.TcCoe Idealize.ShloMosaic.ValueIdx Idealize.SL.Sem

section AnyF
variable {F : FTy → Type} [FloatOps F]
variable (V : (c : Dev nD) → (b : Ref sig .tc) → Buf (Elt F) ((c : Thread nD τ).loc b))

/-- The padded table's block at a point (the whole array: its index never moves). -/
abbrev xblk (c : Dev nD) (t : Fin cfg0.N) : Vec F S10112x128 .bf16 := iblk0 V c 0 t
/-- The source words' block at a point. -/
abbrev sblk (c : Dev nD) (t : Fin cfg0.N) : Vec F S1x512x1 .i32 := iblk0 V c 1 t
/-- The destination words' block at a point. -/
abbrev dblk (c : Dev nD) (t : Fin cfg0.N) : Vec F S1x512x1 .i32 := iblk0 V c 2 t

/-- The zero offsets of a whole-block access, as a constant function. -/
private theorem hz : (![0, 0, 0] : Fin 3 → Nat) = fun _ => 0 := funext fun a => by fin_cases a <;> rfl
/-- The same for a block of two axes. -/
private theorem hz2 : (![0, 0] : Fin 2 → Nat) = fun _ => 0 := funext fun a => by fin_cases a <;> rfl

/-- A part's first chunk: the block is reset, then updated. -/
theorem out_first (c : Dev nD) (i : grid0.Coords) (a2 : Memref sig .tc .vmem S10112x128 .bf16) (h2 : a2.IsWhole)
    (a3 : Memref sig .tc .vmem S1x512x1 .i32) (h3 : a3.IsWhole) (a4 : Memref sig .tc .vmem S1x512x1 .i32) (h4 : a4.IsWhole)
    (a5 : Memref sig .tc .vmem S1x10112x128 .f32) (h5 : a5.IsWhole) (hc : cond0_0 i)
    (x0 : Vec F S10112x128 .bf16) (x1 x2 : Vec F S1x512x1 .i32) :
    out0_A_3 c i a2 h2 a3 h3 a4 h4 a5 h5 hc x0 x1 x2 = k0_pay2 x1 x2 x0 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x10112x128) hz, View.readCov_unit_zero (S := S1x10112x128) _ hz]
  simp only [View.readAt_eq_ld, h2.read_unread, h3.read_unread, h4.read_unread,
    View.ld_unit_zero (S := S1x512x1) hz, View.ld_unit_zero (S := S10112x128) hz2]

/-- Every other chunk: the block is updated over what it held. -/
theorem out_next (c : Dev nD) (i : grid0.Coords) (a2 : Memref sig .tc .vmem S10112x128 .bf16) (h2 : a2.IsWhole)
    (a3 : Memref sig .tc .vmem S1x512x1 .i32) (h3 : a3.IsWhole) (a4 : Memref sig .tc .vmem S1x512x1 .i32) (h4 : a4.IsWhole)
    (a5 : Memref sig .tc .vmem S1x10112x128 .f32) (h5 : a5.IsWhole) (hc : ¬cond0_0 i)
    (x0 : Vec F S10112x128 .bf16) (x1 x2 : Vec F S1x512x1 .i32) (xo : Vec F S1x10112x128 .f32) :
    out0_B_3 c i a2 h2 a3 h3 a4 h4 a5 h5 hc x0 x1 x2 xo = k0_pay2 x1 x2 x0 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero (S := S1x10112x128) hz]
  simp only [View.readAt_eq_ld, h2.read_unread, h3.read_unread, h4.read_unread, h5.read_unread,
    View.ld_unit_zero (S := S1x512x1) hz, View.ld_unit_zero (S := S1x10112x128) hz, View.ld_unit_zero (S := S10112x128) hz2]

end AnyF

/-- The grid point of chunk k of part p. -/
def pt (p : Fin 2) (k : Fin 625) : Fin cfg0.N :=
  ⟨p.val * 625 + k.val, by rw [show cfg0.N = 1250 from N_0]; have := p.isLt; have := k.isLt; omega⟩

theorem pt_val (p : Fin 2) (k : Fin 625) : (pt p k).val = p.val * 625 + k.val := rfl

variable (V : (c : Dev nD) → (b : Ref sig .tc) → Buf (Elt Ideal) ((c : Thread nD τ).loc b))

/-- The chunk a point adds, at (n, d), from the blocks the point reads. -/
def chunkAt (c : Dev nD) (t : Fin cfg0.N) (n : Fin 10112) (d : Fin 128) : EReal :=
  Cert.Gin.chunk (fun e => sblk V c t (ix3 (0 : Fin 1) e (0 : Fin 1))) (fun e => dblk V c t (ix3 (0 : Fin 1) e (0 : Fin 1)))
    (fun m d' => xblk V c t (ix2 m d')) n d

/-- The block after a point depends on the point's number only, not on how its bound was shown. -/
private theorem outsAt_congr (c : Dev nD) (a b : ℕ) (ha : a < cfg0.N) (hb : b < cfg0.N) (e : a = b) :
    outsAt0 (F := Ideal) V c a ha = outsAt0 (F := Ideal) V c b hb := by
  subst e; rfl

/-- The running sum: after chunk k of part p the block holds the part's chunks 0 … k, added in order. Chunk 0 resets
    the block to zero and adds itself; chunk k + 1 adds itself to what chunk k left. -/
private theorem outsAt_part (c : Dev nD) (p : Fin 2) (n : Fin 10112) (d : Fin 128) :
    ∀ (k : ℕ) (hk : k < 625),
      outsAt0 (F := Ideal) V c (pt p ⟨k, hk⟩).val (pt p ⟨k, hk⟩).isLt (ix3 (0 : Fin 1) n d)
        = ∑ j ∈ Finset.range (k + 1), (if hj : j < 625 then chunkAt V c (pt p ⟨j, hj⟩) n d else 0)
  | 0, hk => by
    have h0 : (pt p ⟨0, hk⟩).val % 625 = 0 := by rw [pt_val]; dsimp only; omega
    rw [outsAt0_A V c (pt p ⟨0, hk⟩) h0]
    refine (congrFun (out_first (F := Ideal) c (grid0.coords (pt p ⟨0, hk⟩))
      (ms0_0 (pt p ⟨0, hk⟩)) (hs0_0 (pt p ⟨0, hk⟩)) (ms0_1 (pt p ⟨0, hk⟩)) (hs0_1 (pt p ⟨0, hk⟩))
      (ms0_2 (pt p ⟨0, hk⟩)) (hs0_2 (pt p ⟨0, hk⟩)) (ms0_3 (pt p ⟨0, hk⟩)) (hs0_3 (pt p ⟨0, hk⟩))
      ((hcond0_0 (pt p ⟨0, hk⟩)).mpr h0) (xblk V c (pt p ⟨0, hk⟩)) (sblk V c (pt p ⟨0, hk⟩)) (dblk V c (pt p ⟨0, hk⟩)))
      (ix3 (0 : Fin 1) n d)).trans ?_
    refine (update_apply (sblk V c (pt p ⟨0, hk⟩)) (dblk V c (pt p ⟨0, hk⟩)) (xblk V c (pt p ⟨0, hk⟩))
      (k0_pay1 (F := Ideal)) n d).trans ?_
    rw [reset_apply n d, zero_add, Finset.sum_range_one, dif_pos hk]
    rfl
  | k + 1, hk => by
    have hk' : k < 625 := Nat.lt_of_succ_lt hk
    have hB : ¬(pt p ⟨k + 1, hk⟩).val % 625 = 0 := by rw [pt_val]; dsimp only; omega
    rw [outsAt0_B V c (pt p ⟨k + 1, hk⟩) hB]
    refine (congrFun (out_next (F := Ideal) c (grid0.coords (pt p ⟨k + 1, hk⟩))
      (ms0_0 (pt p ⟨k + 1, hk⟩)) (hs0_0 (pt p ⟨k + 1, hk⟩)) (ms0_1 (pt p ⟨k + 1, hk⟩)) (hs0_1 (pt p ⟨k + 1, hk⟩))
      (ms0_2 (pt p ⟨k + 1, hk⟩)) (hs0_2 (pt p ⟨k + 1, hk⟩)) (ms0_3 (pt p ⟨k + 1, hk⟩)) (hs0_3 (pt p ⟨k + 1, hk⟩))
      (fun h => hB ((hcond0_0 (pt p ⟨k + 1, hk⟩)).mp h))
      (xblk V c (pt p ⟨k + 1, hk⟩)) (sblk V c (pt p ⟨k + 1, hk⟩)) (dblk V c (pt p ⟨k + 1, hk⟩))
      (outsAt0 (F := Ideal) V c ((pt p ⟨k + 1, hk⟩).val - 1) (Nat.lt_of_le_of_lt (Nat.sub_le _ _) (pt p ⟨k + 1, hk⟩).isLt)))
      (ix3 (0 : Fin 1) n d)).trans ?_
    refine (update_apply (sblk V c (pt p ⟨k + 1, hk⟩)) (dblk V c (pt p ⟨k + 1, hk⟩)) (xblk V c (pt p ⟨k + 1, hk⟩))
      (outsAt0 (F := Ideal) V c ((pt p ⟨k + 1, hk⟩).val - 1) (Nat.lt_of_le_of_lt (Nat.sub_le _ _) (pt p ⟨k + 1, hk⟩).isLt))
      n d).trans ?_
    rw [outsAt_congr V c ((pt p ⟨k + 1, hk⟩).val - 1) (pt p ⟨k, hk'⟩).val _ (pt p ⟨k, hk'⟩).isLt
        (by rw [pt_val, pt_val]; dsimp only; omega),
      outsAt_part c p n d k hk', Finset.sum_range_succ _ (k + 1), dif_pos hk]
    rfl

/-- After a part's last chunk the block holds the sum of the part's 625 chunks. -/
theorem outsAt_last (c : Dev nD) (p : Fin 2) (n : Fin 10112) (d : Fin 128) :
    outsAt0 (F := Ideal) V c (pt p 624).val (pt p 624).isLt (ix3 (0 : Fin 1) n d)
      = ∑ k : Fin 625, chunkAt V c (pt p k) n d := by
  refine (outsAt_part V c p n d 624 (by omega)).trans ?_
  rw [← Fin.sum_univ_eq_sum_range (fun j => if hj : j < 625 then chunkAt V c (pt p ⟨j, hj⟩) n d else 0) 625]
  refine Finset.sum_congr rfl fun k _ => ?_
  rw [dif_pos k.isLt]

end Cert.Gin.K0

end
-- ==== Proof.HostVals.lean ====
/-
  What the host operations around the two kernels leave in the arrays the kernels read.

  Before the aggregation: the table is narrowed (the identity on the extended reals) and padded below with 112 rows of
  the converted integer zero; each row of the edge list is cut out, flattened, and folded to 2 x 320000 x 1.
  Between the kernels: the two parts' aggregates are added (a sum over the leading axis from zero) and the first 10000
  rows kept; x is scaled by 1 + eps; the bias rows are reshaped to 1 x 128. The weight matrices and every argument
  pass through unwritten.
-/
import proofs.«409381_j70987219469126_1_alg».proof.Proof.Gen.KernelIdeal.Frame
import proofs.«409381_j70987219469126_1_alg».proof.Proof.AggMath
import Idealize.ShloMosaic.Lib.StableHlo.Run
import Idealize.ShloMosaic.Lib.Pipeline.Value
import Idealize.ShloMosaic.Lib.ValueLayout
import Idealize.ShloMosaic.Lib.KernelVsHost
import Idealize.ShloMosaic.Lib.IdealHost

set_option maxRecDepth 16384

noncomputable section

open scoped BigOperators

namespace Cert.Gin.KH

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The aggregation kernel's result array, by its literal type: 2 parts of 10112 rows of 128. -/
abbrev partsArr (c : Dev nD) : Vec Ideal S2x10112x128 .f32 := (dat0 (V2 m ρ) c).arrAt 3 cfg0.N
/-- The scaled features the update kernel is entered with, by their literal type. -/
abbrev scaledArr (c : Dev nD) : Vec Ideal S10000x128 .f32 := V4 m ρ c main_v13
/-- The aggregate the update kernel is entered with, by its literal type. -/
abbrev aggArr (c : Dev nD) : Vec Ideal S10000x128 .f32 := V4 m ρ c main_v10

section Reads

variable {α : Type}

/-- A table of 10000 rows padded below with 112 rows of one value, read at (r, d): row r of the table where r is one of
    its rows, the padding value elsewhere. -/
private theorem pad_rows_apply (x : S10000x128.Idx → α) (v : S_.Idx → α)
    (hp : S10000x128.Pads (![0, 0] : Fin 2 → Nat) ![112, 0] ![0, 0] S10112x128) (hu : 0 < S_.numel)
    (r : Fin 10112) (d : Fin 128) :
    pad S10112x128 ![0, 0] ![112, 0] ![0, 0] x v hp hu (ix2 r d)
      = if h : r.val < 10000 then x (ix2 (⟨r.val, h⟩ : Fin 10000) d) else v ix0 := by
  by_cases h : r.val < 10000
  · rw [dif_pos h]
    exact pad_apply_of_inside _ _ _ x v hp hu (ix2 r d) (ix2 (⟨r.val, h⟩ : Fin 10000) d) (fun a =>
      match a with
      | ⟨0, _⟩ => by show r.val = 0 + r.val * (0 + 1); omega
      | ⟨1, _⟩ => by show d.val = 0 + d.val * (0 + 1); omega)
  · rw [dif_neg h]
    refine (pad_apply_of_not_inside _ _ _ x v hp hu (ix2 r d) (0 : Fin 2) ?_).trans (congrArg v (eq_ix0 _))
    show ¬(0 ≤ r.val ∧ (r.val - 0) % (0 + 1) = 0 ∧ (r.val - 0) / (0 + 1) < 10000)
    omega

/-- Row q of the edge list cut out, flattened and folded to 2 x 320000 x 1, read at (p, j, 0): the row's word at the
    flat position p * 320000 + j. -/
private theorem edge_words_apply (ei : S2x640000.Idx → α) (o : Nat) (q : Fin 2) (hq : q.val = o)
    (h1 : S2x640000.Slices ![o, 0] S1x640000) (h2 : S1x640000.ShapeCasts S640000)
    (h3 : S640000.ShapeCasts S2x320000x1) (p : Fin 2) (j : Fin 320000) (k : Fin 640000)
    (hk : k.val = p.val * 320000 + j.val) :
    shapeCast S2x320000x1 (shapeCast S640000 (extractStridedSlice S1x640000 ![o, 0] ei h1) h2) h3
        (ix3 p j (0 : Fin 1))
      = ei (ix2 q k) := by
  refine (shapeCast_apply _ h3 (ix3 p j (0 : Fin 1)) (ix1 k) ?_).trans ?_
  · rw [Shape.rowMajor_val_one, Shape.rowMajor_val_three]
    show k.val = (p.val * 320000 + j.val) * 1 + 0
    omega
  refine (shapeCast_apply _ h2 (ix1 k) (ix2 (0 : Fin 1) k) ?_).trans ?_
  · rw [Shape.rowMajor_val_two, Shape.rowMajor_val_one]
    show 0 * 640000 + k.val = k.val
    omega
  exact extractStridedSlice_apply _ ei h1 (ix2 (0 : Fin 1) k) (ix2 q k) (fun a =>
    match a with
    | ⟨0, _⟩ => by show q.val = o + 0; omega
    | ⟨1, _⟩ => by show k.val = 0 + k.val; omega)

/-- A row of 128 reshaped to 1 x 128, read at (0, q): its entry q. -/
private theorem bias_row_apply (b : S128.Idx → α) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_one, Shape.rowMajor_val_two]
    show q.val = 0 * 128 + q.val
    omega)

/-- The features scaled by the broadcast scalar 1 + e, read at (n, d). -/
private theorem scaled_read (e : FVec Ideal S_ .f32) (x : FVec Ideal S10000x128 .f32)
    (hb : S_.BroadcastsInDim S10000x128 (![] : Fin 0 → Fin S10000x128.rank)) (n : Fin 10000) (d : Fin 128) :
    mulf (broadcastInDim S10000x128 ![] hb (addf (constant (F := Ideal) S_ .f32 0x3F800000#32) e)) x (ix2 n d)
      = (Ideal.ofBits .f32 0x3F800000#32 + e ix0) * x (ix2 n d) := by
  rw [mulf_apply, broadcastInDim_scalar_apply, addf_apply, constant_apply]

/-- The parts added along the leading axis from zero and the first 10000 rows kept, read at (n, d): the sum over the
    two parts of their entries at (n, d). -/
private theorem agg_read (parts : FVec Ideal S2x10112x128 .f32) (hr : S2x10112x128.ReducesTo [0] S10112x128)
    (hu : 0 < S_.numel) (hs : S10112x128.Slices ![0, 0] S10000x128) (n : Fin 10000) (d : Fin 128) (n' : Fin 10112)
    (hn : n'.val = n.val) :
    extractStridedSlice S10000x128 ![0, 0]
        (Host.reduceAdd (F := Ideal) parts (constant (F := Ideal) S_ .f32 0x00000000#32) hr hu) hs (ix2 n d)
      = ∑ p : Fin 2, parts (ix3 p n' d) := by
  refine (extractStridedSlice_apply _ _ hs (ix2 n d) (ix2 n' d) (fun a =>
    match a with
    | ⟨0, _⟩ => by show n'.val = 0 + n.val; omega
    | ⟨1, _⟩ => by show d.val = 0 + d.val; omega)).trans ?_
  rw [hostReduceAdd_apply,
    Ideal.hostReduceAdd_single hr (by decide : S2x10112x128.Reduces [0] S10112x128), constant_apply,
    Ideal.ofBits_zero_f32, zero_add]
  refine Finset.sum_congr rfl fun p _ => congrArg parts (funext fun a => ?_)
  match a with
  | ⟨0, _⟩ => rfl
  | ⟨1, _⟩ => rfl
  | ⟨2, _⟩ => rfl

end Reads

/-! ## The arguments' buffers at the aggregation's exit

No host operation writes an argument's buffer and none is an array of the aggregation, so what the fold holds there at
the aggregation's exit is the launch memory's. -/

/-- No operation of a literal line writes the given buffer: each operation's one result buffer is another reference. -/
local macro "no_op_writes" : tactic =>
  `(tactic| (refine List.forall_iff_forall_mem.mp ?_
             simp only [hostOps0, hostOps0_1, hostOps1, List.Forall, StableHlo.nullary_writes, StableHlo.unary_writes,
               StableHlo.binary_writes, StableHlo.reshape_writes, Finset.mem_singleton]
             repeat' apply And.intro
             all_goals exact StableHlo.devRef_ne_of_ne (by decide)))

/-- A buffer that neither stretch before the aggregation writes holds the launch memory's contents at its entry. -/
private theorem W2_of_unwritten (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes) :
    W2 m ρ c (Proc.devRef .tc b) = m ((c.tc : Thread nD τ).loc b) :=
  calc W2 m ρ c (Proc.devRef .tc b)
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c.tc : Thread nD τ).loc b) := rfl

private theorem W3_arg0 (c : Dev nD) : W3 m ρ c (Proc.devRef .tc main_arg0) = m ((c.tc : Thread nD τ).loc main_arg0) :=
  (W3_of_ne m ρ c main_arg0 (by decide)).trans (W2_of_unwritten m ρ c main_arg0 (by no_op_writes) (by no_op_writes))
private theorem W3_arg1 (c : Dev nD) : W3 m ρ c (Proc.devRef .tc main_arg1) = m ((c.tc : Thread nD τ).loc main_arg1) :=
  (W3_of_ne m ρ c main_arg1 (by decide)).trans (W2_of_unwritten m ρ c main_arg1 (by no_op_writes) (by no_op_writes))
private theorem W3_arg2 (c : Dev nD) : W3 m ρ c (Proc.devRef .tc main_arg2) = m ((c.tc : Thread nD τ).loc main_arg2) :=
  (W3_of_ne m ρ c main_arg2 (by decide)).trans (W2_of_unwritten m ρ c main_arg2 (by no_op_writes) (by no_op_writes))
private theorem W3_arg3 (c : Dev nD) : W3 m ρ c (Proc.devRef .tc main_arg3) = m ((c.tc : Thread nD τ).loc main_arg3) :=
  (W3_of_ne m ρ c main_arg3 (by decide)).trans (W2_of_unwritten m ρ c main_arg3 (by no_op_writes) (by no_op_writes))
private theorem W3_arg4 (c : Dev nD) : W3 m ρ c (Proc.devRef .tc main_arg4) = m ((c.tc : Thread nD τ).loc main_arg4) :=
  (W3_of_ne m ρ c main_arg4 (by decide)).trans (W2_of_unwritten m ρ c main_arg4 (by no_op_writes) (by no_op_writes))
private theorem W3_arg5 (c : Dev nD) : W3 m ρ c (Proc.devRef .tc main_arg5) = m ((c.tc : Thread nD τ).loc main_arg5) :=
  (W3_of_ne m ρ c main_arg5 (by decide)).trans (W2_of_unwritten m ρ c main_arg5 (by no_op_writes) (by no_op_writes))

/-! ## The arrays as the operations' terms -/

private theorem table_arr (c : Dev nD) :
    (V2 m ρ c main_v7 : Vec Ideal S10112x128 .bf16)
      = pad S10112x128 ![0, 0] ![112, 0] ![0, 0]
          (truncf .bf16 (m ((c.tc : Thread nD τ).loc main_arg0) : Vec Ideal S10000x128 .f32) bitsLt_bf16_f32)
          (sitofp (F := Ideal) .bf16 (constantI S_ 32 0#32)) pads_S10000x128_S10112x128_01120_000 h_S_ := by
  show StableHlo.after hostOps0_1 (StableHlo.after hostOps0 _) (Proc.devRef .tc main_v7) = _
  after_results
  rfl

private theorem srcw_arr (c : Dev nD) :
    (V2 m ρ c main_v4 : Vec Ideal S2x320000x1 .i32)
      = shapeCast S2x320000x1
          (shapeCast S640000
            (extractStridedSlice S1x640000 ![0, 0] (m ((c.tc : Thread nD τ).loc main_arg6) : IVec S2x640000 32)
              slices_S2x640000_S1x640000_0_0)
            shapeCasts_S1x640000_S640000)
          shapeCasts_S640000_S2x320000x1 := by
  show StableHlo.after hostOps0_1 (StableHlo.after hostOps0 _) (Proc.devRef .tc main_v4) = _
  after_results
  rfl

private theorem dstw_arr (c : Dev nD) :
    (V2 m ρ c main_v5 : Vec Ideal S2x320000x1 .i32)
      = shapeCast S2x320000x1
          (shapeCast S640000
            (extractStridedSlice S1x640000 ![1, 0] (m ((c.tc : Thread nD τ).loc main_arg6) : IVec S2x640000 32)
              slices_S2x640000_S1x640000_1_0)
            shapeCasts_S1x640000_S640000)
          shapeCasts_S640000_S2x320000x1 := by
  show StableHlo.after hostOps0_1 (StableHlo.after hostOps0 _) (Proc.devRef .tc main_v5) = _
  after_results
  rfl

private theorem scaled_arr (c : Dev nD) :
    scaledArr m ρ c
      = mulf (broadcastInDim S10000x128 ![] bcast_S_S10000x128
                (addf (constant (F := Ideal) S_ .f32 0x3F800000#32)
                  (m ((c.tc : Thread nD τ).loc main_arg1) : Vec Ideal S_ .f32)))
             (m ((c.tc : Thread nD τ).loc main_arg0) : Vec Ideal S10000x128 .f32) := by
  show StableHlo.after hostOps1 (W3 m ρ c) (Proc.devRef .tc main_v13) = _
  after_results
  rw [W3_arg1, W3_arg0]

private theorem agg_arr (c : Dev nD) :
    aggArr m ρ c
      = extractStridedSlice S10000x128 ![0, 0]
          (Host.reduceAdd (F := Ideal) (partsArr m ρ c)
            (constant (F := Ideal) S_ .f32 0x00000000#32) reducesTo_S2x10112x128_S10112x128_d0 h_S_)
          slices_S10112x128_S10000x128_0_0 := by
  show StableHlo.after hostOps1 (W3 m ρ c) (Proc.devRef .tc main_v10) = _
  after_results
  rw [show W3 m ρ c (Proc.devRef .tc main_v8) = (dat0 (V2 m ρ) c).arrAt 3 cfg0.N from W3_arr m ρ c 3]

private theorem b1_arr (c : Dev nD) :
    (V4 m ρ c main_v14 : Vec Ideal S1x128 .f32)
      = shapeCast S1x128 (m ((c.tc : Thread nD τ).loc main_arg3) : Vec Ideal S128 .f32) shapeCasts_S128_S1x128 := by
  show StableHlo.after hostOps1 (W3 m ρ c) (Proc.devRef .tc main_v14) = _
  after_results
  rw [W3_arg3]
  rfl

private theorem b2_arr (c : Dev nD) :
    (V4 m ρ c main_v15 : Vec Ideal S1x128 .f32)
      = shapeCast S1x128 (m ((c.tc : Thread nD τ).loc main_arg5) : Vec Ideal S128 .f32) shapeCasts_S128_S1x128 := by
  show StableHlo.after hostOps1 (W3 m ρ c) (Proc.devRef .tc main_v15) = _
  after_results
  rw [W3_arg5]
  rfl

/-- The padded table the aggregation reads, at (r, d): row r of x below 10000, zero above. -/
theorem table_apply (c : Dev nD) (r : Fin 10112) (d : Fin 128) :
    (V2 m ρ c main_v7 : Vec Ideal S10112x128 .bf16) (ix2 r d)
      = Cert.Gin.xpad (m ((c.tc : Thread nD τ).loc main_arg0)) r d := by
  rw [table_arr, pad_rows_apply]
  unfold Cert.Gin.xpad
  by_cases h : r.val < 10000
  · rw [dif_pos h, dif_pos h]
    rfl
  · rw [dif_neg h, dif_neg h]
    exact sitofp_zero (φ := .bf16)

/-- The source words the aggregation reads, at (p, j, 0): word p * 320000 + j of row 0 of the edge list. -/
theorem srcw_apply (c : Dev nD) (p : Fin 2) (j : Fin 320000) :
    (V2 m ρ c main_v4 : Vec Ideal S2x320000x1 .i32) (ix3 p j (0 : Fin 1))
      = (m ((c.tc : Thread nD τ).loc main_arg6) : IVec S2x640000 32)
          (ix2 (0 : Fin 2) (⟨p.val * 320000 + j.val, by have := p.isLt; have := j.isLt; omega⟩ : Fin 640000)) := by
  rw [srcw_arr]
  exact edge_words_apply _ 0 (0 : Fin 2) rfl _ _ _ p j _ rfl

/-- The destination words the aggregation reads, at (p, j, 0): word p * 320000 + j of row 1 of the edge list. -/
theorem dstw_apply (c : Dev nD) (p : Fin 2) (j : Fin 320000) :
    (V2 m ρ c main_v5 : Vec Ideal S2x320000x1 .i32) (ix3 p j (0 : Fin 1))
      = (m ((c.tc : Thread nD τ).loc main_arg6) : IVec S2x640000 32)
          (ix2 (1 : Fin 2) (⟨p.val * 320000 + j.val, by have := p.isLt; have := j.isLt; omega⟩ : Fin 640000)) := by
  rw [dstw_arr]
  exact edge_words_apply _ 1 (1 : Fin 2) rfl _ _ _ p j _ rfl

/-- The scaled features the update reads, at (n, d). -/
theorem scaled_apply (c : Dev nD) (n : Fin 10000) (d : Fin 128) :
    scaledArr m ρ c (ix2 n d)
      = (Ideal.ofBits .f32 0x3F800000#32 + (m ((c.tc : Thread nD τ).loc main_arg1) : Vec Ideal S_ .f32) ix0)
          * (m ((c.tc : Thread nD τ).loc main_arg0) : Vec Ideal S10000x128 .f32) (ix2 n d) := by
  rw [scaled_arr]
  exact scaled_read _ _ _ n d

/-- The aggregate the update reads, at (n, d): the two parts of the aggregation's result array added, from zero. -/
theorem aggsum_apply (c : Dev nD) (n : Fin 10000) (d : Fin 128) :
    aggArr m ρ c (ix2 n d)
      = ∑ p : Fin 2, partsArr m ρ c (ix3 p (⟨n.val, by have := n.isLt; omega⟩ : Fin 10112) d) := by
  rw [agg_arr]
  exact agg_read _ _ _ _ n d _ rfl

/-- The first weight matrix passes through. -/
theorem w1_eq (c : Dev nD) : V4 m ρ c main_arg2 = m ((c.tc : Thread nD τ).loc main_arg2) :=
  (StableHlo.after_of_forall_not_mem (b := Proc.devRef .tc main_arg2) hostOps1 (W3 m ρ c) (by no_op_writes)).trans
    (W3_arg2 m ρ c)

/-- The second weight matrix passes through. -/
theorem w2_eq (c : Dev nD) : V4 m ρ c main_arg4 = m ((c.tc : Thread nD τ).loc main_arg4) :=
  (StableHlo.after_of_forall_not_mem (b := Proc.devRef .tc main_arg4) hostOps1 (W3 m ρ c) (by no_op_writes)).trans
    (W3_arg4 m ρ c)

/-- The first bias row, reshaped, at (0, q). -/
theorem b1_apply (c : Dev nD) (q : Fin 128) :
    (V4 m ρ c main_v14 : Vec Ideal S1x128 .f32) (ix2 (0 : Fin 1) q)
      = (m ((c.tc : Thread nD τ).loc main_arg3) : Vec Ideal S128 .f32) (ix1 q) := by
  rw [b1_arr]
  exact bias_row_apply _ _ q

/-- The second bias row, reshaped, at (0, q). -/
theorem b2_apply (c : Dev nD) (q : Fin 128) :
    (V4 m ρ c main_v15 : Vec Ideal S1x128 .f32) (ix2 (0 : Fin 1) q)
      = (m ((c.tc : Thread nD τ).loc main_arg5) : Vec Ideal S128 .f32) (ix1 q) := by
  rw [b2_arr]
  exact bias_row_apply _ _ q

end Cert.Gin.KH

end
-- ==== Proof.Region0Final.lean ====
/-
  The aggregation kernel's result array.

  Its windows, at the contents the kernel is entered with: the padded table whole at every point; the source and
  destination words' blocks at point p * 625 + k are words p * 320000 + k * 512 … + 511 of the edge list's two rows. So
  the chunk a point adds is the edge list's chunk k of part p, and the result array, whose block p is written back after
  part p's last chunk, holds at (p, n, d) the sum of part p's 625 chunks.
-/
import proofs.«409381_j70987219469126_1_alg».proof.Proof.Region0Acc
import proofs.«409381_j70987219469126_1_alg».proof.Proof.HostVals
import Idealize.ShloMosaic.Lib.Pipeline.Value

set_option maxRecDepth 16384

noncomputable section

open scoped BigOperators

namespace Cert.Gin.K0

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' index maps, decided once over the grid: the table's block never moves; the words' blocks sit at
    (part, chunk, 0); the result's block at (part, 0, 0). Point t is chunk t % 625 of part t / 625. -/
private theorem idx_facts : ∀ t : Fin cfg0.N,
    win0_0.index t (0 : Fin 2) = 0 ∧ win0_0.index t (1 : Fin 2) = 0
    ∧ win0_1.index t (0 : Fin 3) = t.val / 625 ∧ win0_1.index t (1 : Fin 3) = t.val % 625 ∧ win0_1.index t (2 : Fin 3) = 0
    ∧ win0_2.index t (0 : Fin 3) = t.val / 625 ∧ win0_2.index t (1 : Fin 3) = t.val % 625 ∧ win0_2.index t (2 : Fin 3) = 0
    ∧ win0_3.index t (0 : Fin 3) = t.val / 625 ∧ win0_3.index t (1 : Fin 3) = 0 ∧ win0_3.index t (2 : Fin 3) = 0 :=
  (by decide +kernel : ∀ t : Fin grid0.N, _)

/-- The arrays the windows sit on, by their literal types. -/
private abbrev tableArr (c : Dev nD) : Vec Ideal S10112x128 .bf16 := V2 m ρ c main_v7
private abbrev srcArr (c : Dev nD) : Vec Ideal S2x320000x1 .i32 := V2 m ρ c main_v4
private abbrev dstArr (c : Dev nD) : Vec Ideal S2x320000x1 .i32 := V2 m ρ c main_v5

/-- The table's block at any point is the padded table. -/
theorem xblk_apply (c : Dev nD) (t : Fin cfg0.N) (r : Fin 10112) (d : Fin 128) :
    xblk (V2 m ρ) c t (ix2 r d) = Cert.Gin.xpad (m ((c.tc : Thread nD τ).loc main_arg0)) r d := by
  rw [← Cert.Gin.KH.table_apply m ρ c r d]
  show tableArr m ρ c (((cfg0.win 0).blk t).view.emb (ix2 r d)) = tableArr m ρ c (ix2 r d)
  obtain ⟨e0, e1, -⟩ := idx_facts t
  refine congrArg (tableArr m ρ c) ?_
  funext a; apply Fin.ext
  match a with
  | ⟨0, _⟩ => show win0_0.index t (0 : Fin 2) * 10112 + 1 * r.val = r.val; omega
  | ⟨1, _⟩ => show win0_0.index t (1 : Fin 2) * 128 + 1 * d.val = d.val; omega

/-- The source words' block at the point of chunk k of part p. -/
theorem sblk_apply (c : Dev nD) (p : Fin 2) (k : Fin 625) (e : Fin 512) :
    sblk (V2 m ρ) c (pt p k) (ix3 (0 : Fin 1) e (0 : Fin 1))
      = (m ((c.tc : Thread nD τ).loc main_arg6) : IVec S2x640000 32) (ix2 (0 : Fin 2) (Cert.Gin.edge p k e)) := by
  have hp := p.isLt; have hk := k.isLt; have he := e.isLt
  have hj : k.val * 512 + e.val < 320000 := by omega
  refine Eq.trans ?_ ((Cert.Gin.KH.srcw_apply m ρ c p ⟨k.val * 512 + e.val, hj⟩).trans ?_)
  · show srcArr m ρ c (((cfg0.win 1).blk (pt p k)).view.emb (ix3 (0 : Fin 1) e (0 : Fin 1)))
      = srcArr m ρ c (ix3 p (⟨k.val * 512 + e.val, hj⟩ : Fin 320000) (0 : Fin 1))
    obtain ⟨-, -, e0, e1, e2, -⟩ := idx_facts (pt p k)
    rw [pt_val] at e0 e1
    refine congrArg (srcArr m ρ c) ?_
    funext a; apply Fin.ext
    match a with
    | ⟨0, _⟩ => show win0_1.index (pt p k) (0 : Fin 3) * 1 + 1 * 0 = p.val; omega
    | ⟨1, _⟩ => show win0_1.index (pt p k) (1 : Fin 3) * 512 + 1 * e.val = k.val * 512 + e.val; omega
    | ⟨2, _⟩ => show win0_1.index (pt p k) (2 : Fin 3) * 1 + 1 * 0 = 0; omega
  · refine congrArg (fun i : Fin 640000 => (m ((c.tc : Thread nD τ).loc main_arg6) : IVec S2x640000 32) (ix2 (0 : Fin 2) i)) ?_
    apply Fin.ext
    show p.val * 320000 + (k.val * 512 + e.val) = p.val * 320000 + k.val * 512 + e.val
    omega

/-- The destination words' block at the point of chunk k of part p. -/
theorem dblk_apply (c : Dev nD) (p : Fin 2) (k : Fin 625) (e : Fin 512) :
    dblk (V2 m ρ) c (pt p k) (ix3 (0 : Fin 1) e (0 : Fin 1))
      = (m ((c.tc : Thread nD τ).loc main_arg6) : IVec S2x640000 32) (ix2 (1 : Fin 2) (Cert.Gin.edge p k e)) := by
  have hp := p.isLt; have hk := k.isLt; have he := e.isLt
  have hj : k.val * 512 + e.val < 320000 := by omega
  refine Eq.trans ?_ ((Cert.Gin.KH.dstw_apply m ρ c p ⟨k.val * 512 + e.val, hj⟩).trans ?_)
  · show dstArr m ρ c (((cfg0.win 2).blk (pt p k)).view.emb (ix3 (0 : Fin 1) e (0 : Fin 1)))
      = dstArr m ρ c (ix3 p (⟨k.val * 512 + e.val, hj⟩ : Fin 320000) (0 : Fin 1))
    obtain ⟨-, -, -, -, -, e0, e1, e2, -⟩ := idx_facts (pt p k)
    rw [pt_val] at e0 e1
    refine congrArg (dstArr m ρ c) ?_
    funext a; apply Fin.ext
    match a with
    | ⟨0, _⟩ => show win0_2.index (pt p k) (0 : Fin 3) * 1 + 1 * 0 = p.val; omega
    | ⟨1, _⟩ => show win0_2.index (pt p k) (1 : Fin 3) * 512 + 1 * e.val = k.val * 512 + e.val; omega
    | ⟨2, _⟩ => show win0_2.index (pt p k) (2 : Fin 3) * 1 + 1 * 0 = 0; omega
  · refine congrArg (fun i : Fin 640000 => (m ((c.tc : Thread nD τ).loc main_arg6) : IVec S2x640000 32) (ix2 (1 : Fin 2) i)) ?_
    apply Fin.ext
    show p.val * 320000 + (k.val * 512 + e.val) = p.val * 320000 + k.val * 512 + e.val
    omega

/-- So the chunk a point adds is the edge list's. -/
theorem chunkAt_eq (c : Dev nD) (p : Fin 2) (k : Fin 625) (n : Fin 10112) (d : Fin 128) :
    chunkAt (V2 m ρ) c (pt p k) n d
      = Cert.Gin.chunkOf (m ((c.tc : Thread nD τ).loc main_arg0)) (m ((c.tc : Thread nD τ).loc main_arg6)) p k n d := by
  unfold chunkAt Cert.Gin.chunkOf
  simp only [sblk_apply, dblk_apply, xblk_apply]

/-- What the result array ends holding: at (p, n, d) the sum of part p's 625 chunks of the edge list. -/
private def partsFn (c : Dev nD) : Vec Ideal S2x10112x128 .f32 := fun i =>
  (∑ k : Fin 625, Cert.Gin.chunkOf (m ((c.tc : Thread nD τ).loc main_arg0)) (m ((c.tc : Thread nD τ).loc main_arg6))
    (i 0) k (i 1) (i 2) : EReal)

private theorem partsFn_apply (c : Dev nD) (p : Fin 2) (n : Fin 10112) (d : Fin 128) :
    partsFn m c (ix3 p n d)
      = ∑ k : Fin 625, Cert.Gin.chunkOf (m ((c.tc : Thread nD τ).loc main_arg0)) (m ((c.tc : Thread nD τ).loc main_arg6)) p k n d :=
  rfl

/-- The last point of part p is the one at which the result's block is written back; its value. -/
private theorem last_val (p : Fin 2) : (pt p 624).val = p.val * 625 + 624 := rfl

/-- Entry (0, n, d) of the result's block at part p's last point sits at (p, n, d) of the array. -/
private theorem emb_last (p : Fin 2) (n : Fin 10112) (d : Fin 128) :
    ((cfg0.win 3).blk (pt p 624)).view.emb (ix3 (0 : Fin 1) n d) = (ix3 p n d : S2x10112x128.Idx) := by
  have hp := p.isLt
  obtain ⟨-, -, -, -, -, -, -, -, e0, e1, e2⟩ := idx_facts (pt p 624)
  rw [last_val] at e0
  funext a; apply Fin.ext
  match a with
  | ⟨0, _⟩ => show win0_3.index (pt p 624) (0 : Fin 3) * 1 + 1 * 0 = p.val; omega
  | ⟨1, _⟩ => show win0_3.index (pt p 624) (1 : Fin 3) * 10112 + 1 * n.val = n.val; omega
  | ⟨2, _⟩ => show win0_3.index (pt p 624) (2 : Fin 3) * 128 + 1 * d.val = d.val; omega

/-- What a point that writes the result's block back writes: the block of `partsFn` there. Such a point is the last
    of its part, after which the block holds the part's 625 chunks summed; each chunk is the edge list's. -/
private theorem flushed_eq (c : Dev nD) (t : Fin cfg0.N) (hf : (cfg0.win 3).flush t = true) :
    (dat0 (V2 m ρ) c).flushed 3 t = ((cfg0.win 3).blk t).view.read (Elt Ideal) (partsFn m c) := by
  have hN : cfg0.N = 1250 := N_0
  have h624 : t.val % 625 = 624 := (flush0_3 t).mp hf
  have ht : t.val < 1250 := lt_of_lt_of_eq t.isLt hN
  obtain ⟨p, rfl⟩ : ∃ p : Fin 2, t = pt p 624 :=
    ⟨⟨t.val / 625, by omega⟩, Fin.ext (by show t.val = t.val / 625 * 625 + 624; omega)⟩
  show (cfg0.win 3).cut (grid0.coords (pt p 624)) ((dat0 (V2 m ρ) c).after 3 (pt p 624)) = _
  rw [after0_3]
  refine funext fun (y : S1x10112x128.Idx) => ?_
  obtain ⟨z, n, d, rfl⟩ : ∃ (z : Fin 1) (n : Fin 10112) (d : Fin 128), y = ix3 z n d := ⟨y 0, y 1, y 2, eq_ix3 y⟩
  obtain rfl : z = 0 := Subsingleton.elim _ _
  show outsAt0 (F := Ideal) (V2 m ρ) c (pt p 624).val (pt p 624).isLt (ix3 (0 : Fin 1) n d)
    = partsFn m c (((cfg0.win 3).blk (pt p 624)).view.emb (ix3 (0 : Fin 1) n d))
  refine (outsAt_last (V2 m ρ) c p n d).trans ?_
  refine Eq.trans ?_ (congrArg (partsFn m c) (emb_last p n d)).symm
  refine Eq.trans ?_ (partsFn_apply m c p n d).symm
  exact Finset.sum_congr rfl fun k _ => chunkAt_eq m ρ c p k n d

/-- An index of the result array is in a point's block iff each coordinate is in the block's range on its axis. -/
private theorem mem_blk (t : Fin cfg0.N) (i : S2x10112x128.Idx) :
    i ∈ ((cfg0.win 3).blk t).view.set ↔ ∀ a : Fin 3, win0_3.index t a * S1x10112x128.size a ≤ (i a).val
      ∧ (i a).val < win0_3.index t a * S1x10112x128.size a + S1x10112x128.size a := by
  show i ∈ ((View.whole main_v8).slice (win0_3.rect t)).set ↔ _
  rw [View.set_slice_whole, Rect.mem_set_unit]
  exact Iff.rfl

/-- Every index (p, n, d) of the result array lies in the block written back at part p's last point. -/
private theorem covered (i : S2x10112x128.Idx) :
    ∃ t : Fin cfg0.N, (cfg0.win 3).flush t = true ∧ i ∈ ((cfg0.win 3).blk t).view.set := by
  obtain ⟨p, n, d, rfl⟩ : ∃ (p : Fin 2) (n : Fin 10112) (d : Fin 128), i = ix3 p n d := ⟨i 0, i 1, i 2, eq_ix3 i⟩
  have hp := p.isLt; have hn := n.isLt; have hd := d.isLt
  refine ⟨pt p 624, (flush0_3 (pt p 624)).mpr (by rw [last_val]; omega), ?_⟩
  rw [mem_blk]
  obtain ⟨-, -, -, -, -, -, -, -, e0, e1, e2⟩ := idx_facts (pt p 624)
  rw [last_val] at e0
  intro a
  match a with
  | ⟨0, _⟩ => show win0_3.index (pt p 624) (0 : Fin 3) * 1 ≤ p.val ∧ p.val < win0_3.index (pt p 624) (0 : Fin 3) * 1 + 1; omega
  | ⟨1, _⟩ => show win0_3.index (pt p 624) (1 : Fin 3) * 10112 ≤ n.val ∧ n.val < win0_3.index (pt p 624) (1 : Fin 3) * 10112 + 10112; omega
  | ⟨2, _⟩ => show win0_3.index (pt p 624) (2 : Fin 3) * 128 ≤ d.val ∧ d.val < win0_3.index (pt p 624) (2 : Fin 3) * 128 + 128; omega

/-- The result array at (p, n, d): part p's chunks, summed. -/
theorem parts_apply (c : Dev nD) (p : Fin 2) (n : Fin 10112) (d : Fin 128) :
    Cert.Gin.KH.partsArr m ρ c (ix3 p n d)
      = ∑ k : Fin 625, Cert.Gin.chunkOf (m ((c.tc : Thread nD τ).loc main_arg0)) (m ((c.tc : Thread nD τ).loc main_arg6)) p k n d := by
  have h : Cert.Gin.KH.partsArr m ρ c = partsFn m c :=
    (dat0 (V2 m ρ) c).arrAt_eq_of_cover 3 (partsFn m c) (flushed_eq m ρ c) (fun i => covered i)
  exact (congrFun h (ix3 p n d)).trans (partsFn_apply m c p n d)

end Cert.Gin.K0

end
-- ==== Proof.KernelValue.lean ====
/-
  The kernel program's result is the layer.

  The update kernel's store is two dense layers over the sum of its first two operands. The first operand is x scaled by
  1 + eps; the second is the two parts of the aggregation's result added, which at a node is the kernel's aggregate, and
  that is the neighbour sum when every source word is a node number. The weights pass through; the bias rows are read at
  (0, q).
-/
import proofs.«409381_j70987219469126_1_alg».proof.Proof.Region1
import proofs.«409381_j70987219469126_1_alg».proof.Proof.Region1Math
import proofs.«409381_j70987219469126_1_alg».proof.Proof.Region0Final
import proofs.«409381_j70987219469126_1_alg».proof.Proof.HostVals

set_option maxRecDepth 16384

noncomputable section

open scoped BigOperators

namespace Cert.Gin.K

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- What the update kernel adds up, at (a, d): the layer's combined features. -/
theorem combined_eq (c : Dev nD) (h : Cert.Gin.SrcInRange (m ((c.tc : Thread nD τ).loc main_arg6))) (a : Fin 10000) (d : Fin 128) :
    Cert.Gin.KH.scaledArr m ρ c (ix2 a d) + Cert.Gin.KH.aggArr m ρ c (ix2 a d)
      = Cert.Gin.combined (m ((c.tc : Thread nD τ).loc main_arg0)) (m ((c.tc : Thread nD τ).loc main_arg1))
          (m ((c.tc : Thread nD τ).loc main_arg6)) a d := by
  have h1 := Cert.Gin.KH.scaled_apply m ρ c a d
  have h2 := Cert.Gin.KH.aggsum_apply m ρ c a d
  have h3 : (∑ p : Fin 2, Cert.Gin.KH.partsArr m ρ c (ix3 p (⟨a.val, by have := a.isLt; omega⟩ : Fin 10112) d))
      = Cert.Gin.kernelAgg (m ((c.tc : Thread nD τ).loc main_arg0)) (m ((c.tc : Thread nD τ).loc main_arg6))
          (⟨a.val, by have := a.isLt; omega⟩ : Fin 10112) d :=
    Finset.sum_congr rfl (fun p _ => Cert.Gin.K0.parts_apply m ρ c p (⟨a.val, by have := a.isLt; omega⟩ : Fin 10112) d)
  have h4 := Cert.Gin.kernelAgg_eq (m ((c.tc : Thread nD τ).loc main_arg0)) (m ((c.tc : Thread nD τ).loc main_arg6)) h a d
  exact congrArg₂ (· + ·) h1 (h2.trans (h3.trans h4))

/-- The result array of the kernel program, with every source word a node number. -/
theorem value (c : Dev nD) (h : Cert.Gin.SrcInRange (m ((c.tc : Thread nD τ).loc main_arg6))) :
    (W5 m ρ c (Proc.devRef .tc main_v16) : Vec Ideal S10000x128 .f32)
      = Cert.Gin.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  obtain ⟨n, q, rfl⟩ : ∃ (n : Fin 10000) (q : Fin 128), i = ix2 n q := ⟨i 0, i 1, eq_ix2 i⟩
  rw [Cert.Gin.K1.result_eq, Cert.Gin.K1.mlp_apply, Cert.Gin.out_apply]
  unfold Cert.Gin.outAt
  have hf : (fun a d => Cert.Gin.KH.scaledArr m ρ c (ix2 a d)
        + Cert.Gin.KH.aggArr m ρ c (ix2 a d))
      = Cert.Gin.combined (m ((c.tc : Thread nD τ).loc main_arg0)) (m ((c.tc : Thread nD τ).loc main_arg1))
          (m ((c.tc : Thread nD τ).loc main_arg6)) := by
    funext a d; exact combined_eq m ρ c h a d
  have hb1 : (fun j : Fin 128 => (V4 m ρ c main_v14 : Vec Ideal S1x128 .f32) (ix2 (0 : Fin 1) j))
      = fun j => (m ((c.tc : Thread nD τ).loc main_arg3) : Vec Ideal S128 .f32) (ix1 j) :=
    funext fun j => Cert.Gin.KH.b1_apply m ρ c j
  have hb2 : (fun j : Fin 128 => (V4 m ρ c main_v15 : Vec Ideal S1x128 .f32) (ix2 (0 : Fin 1) j))
      = fun j => (m ((c.tc : Thread nD τ).loc main_arg5) : Vec Ideal S128 .f32) (ix1 j) :=
    funext fun j => Cert.Gin.KH.b2_apply m ρ c j
  rw [hf, hb1, hb2, Cert.Gin.KH.w1_eq, Cert.Gin.KH.w2_eq]

end Cert.Gin.K

end
-- ==== Proof.RefAgg.lean ====
/-
  The reference's aggregation read at an index.

  The reference wraps a negative source word by adding 10000, gathers the rows of x at the resulting words (the gather
  clamps its start into the table), and scatter-adds row e of the gathered rows into row dst e of a zero array, an
  update landing outside the array being dropped. A source word that is a node number is not negative, so it is not
  wrapped, and the clamp is the word itself: the gathered row is the source row. The scatter's sum at (n, d) runs over
  the update entries (e, d') landing on (n, d), which are the (e, d) with dst e = n: the neighbour sum.
-/
import proofs.«409381_j70987219469126_1_alg».proof.Proof.Gen.ReferenceIdeal.Read
import proofs.«409381_j70987219469126_1_alg».proof.Proof.Spec
import Idealize.ShloMosaic.Lib.StableHlo.Predicate

noncomputable section

open scoped BigOperators

namespace Cert.Gin.R

open Cert.ReferenceIdeal Cert.ReferenceIdeal.Gen Cert.ReferenceIdeal.Read Idealize.ShloMosaic Idealize.ShloMosaic.ValueIdx

/-! ## The two edge words

Row 0 of the edge list goes through "add 10000 if negative" and is laid out as a column; row 1 is laid out as a column
directly. Read at (e, 0), each is a word of the edge list. -/

/-- A word that is not negative is kept by "add 10000 if negative": the signed comparison with 0 is false. -/
private theorem wrap_nonneg (w : BitVec 32) (hw : 0 ≤ w.toInt) :
    Scalar.select (IntOp.cmpi .slt w 0#32) (IntOp.addi w 10000#32) w = w := by
  have hlt : w.slt 0#32 = false := by
    rw [BitVec.slt]
    simp only [BitVec.toInt_zero, decide_eq_false_iff_not, not_lt]
    exact hw
  have hc : IntOp.cmpi .slt w 0#32 = 0#1 := by
    unfold IntOp.cmpi
    simp only [hlt]
    rfl
  rw [hc, select_zero]

/-- The word the gather reads for edge e: with the source words node numbers, the edge's source word itself. -/
private theorem src_word (x6 : (⟨S2x640000, .i32⟩ : BufTy).Contents (Elt Ideal)) (h : Cert.Gin.SrcInRange x6) (e : Fin 640000) :
    val_main_v9 (F := Ideal) x6 (ix2 e (0 : Fin 1)) = x6 (ix2 (0 : Fin 2) e) := by
  have hidx : idx_main_v0 (idx_main_v1 (idx_main_v9 (ix2 e (0 : Fin 1)))) = ix2 (0 : Fin 2) e := by
    funext a; refine Fin.ext ?_
    match a with
    | ⟨0, _⟩ => rfl
    | ⟨1, _⟩ => exact Nat.mod_eq_of_lt e.isLt
  rw [val_main_v9_apply, val_main_v8_apply, val_main_v5_apply, val_main_v7_apply, val_main_v4_apply, val_main_c_apply,
    val_main_v6_apply, val_main_c_0_apply, val_main_v1_apply, val_main_v0_apply, hidx]
  exact wrap_nonneg _ (h e).1

/-- The word the scatter reads for edge e: the edge's destination word. -/
private theorem dst_word (x6 : (⟨S2x640000, .i32⟩ : BufTy).Contents (Elt Ideal)) (e : Fin 640000) :
    val_main_v12 (F := Ideal) x6 (ix2 e (0 : Fin 1)) = x6 (ix2 (1 : Fin 2) e) := by
  have hidx : idx_main_v2 (idx_main_v3 (idx_main_v12 (ix2 e (0 : Fin 1)))) = ix2 (1 : Fin 2) e := by
    funext a; refine Fin.ext ?_
    match a with
    | ⟨0, _⟩ => rfl
    | ⟨1, _⟩ => exact Nat.mod_eq_of_lt e.isLt
  rw [val_main_v12_apply, val_main_v3_apply, val_main_v2_apply, hidx]

/-! ## The gather, coordinate by coordinate

Result entry (e, d') reads the table at row "start of the slice" and column d': the row axis is collapsed (slice size
1, its start the index word read signed and clamped into [0, 9999]), the feature axis is the one offset axis (slice size
128, start 0), and there is no batching axis. -/

/-- A start word read signed and clamped into the table's rows. -/
private def clampRow (w : BitVec 32) : Fin 10000 := ⟨min w.toInt.toNat 9999, by omega⟩

/-- The gather's dimension numbers. -/
private abbrev gd : GatherDims S10000x128 S640000x1 S640000x128 := gather_S10000x128_S640000x1_S640000x128_1_0_n_n_0_1_1128

/-- A start index has one component, read at (e, 0). -/
private theorem gd_siIdx (j : S640000x128.Idx) (c : Fin gd.startIndexMap.length) : gd.siIdx j c = ix2 (j 0) (0 : Fin 1) := by
  funext b; refine Fin.ext ?_
  match b with
  | ⟨0, _⟩ => rfl
  | ⟨1, _⟩ =>
    have hc : c.val < 1 := c.isLt
    show c.val = 0
    omega

/-- On the row axis the slice starts at the index word, read signed and clamped into [0, 9999]. -/
private theorem gd_start0 (j : S640000x128.Idx) (idx : IVec S640000x1 32) :
    gd.start j idx 0 = min (idx (ix2 (j 0) (0 : Fin 1))).toInt.toNat 9999 := by
  unfold GatherDims.start
  rw [dif_pos (show (0 : Fin 2) ∈ gd.startIndexMap from List.mem_singleton.mpr rfl), gd_siIdx]
  rfl

/-- On the feature axis the slice starts at 0. -/
private theorem gd_start1 (j : S640000x128.Idx) (idx : IVec S640000x1 32) : gd.start j idx 1 = 0 := by
  unfold GatherDims.start
  rw [dif_neg (show ¬ (1 : Fin 2) ∈ gd.startIndexMap by decide)]

/-- No axis is a batching axis. -/
private theorem gd_batch (j : S640000x128.Idx) (a : Fin 2) : gd.batchCoord j a = 0 :=
  GatherDims.batchCoord_eq_zero _ _ _ List.not_mem_nil

/-- The row axis is collapsed: no offset coordinate. -/
private theorem gd_off0 (j : S640000x128.Idx) : gd.offCoord j 0 = 0 := by
  unfold GatherDims.offCoord
  rw [dif_neg (show ¬ (0 : Fin 2) ∈ gd.sKept by decide)]

/-- The feature axis carries the result's feature coordinate. -/
private theorem gd_off1 (j : S640000x128.Idx) : gd.offCoord j 1 = (j 1).val := by
  unfold GatherDims.offCoord
  rw [dif_pos (show (1 : Fin 2) ∈ gd.sKept by decide)]
  rfl

/-- The gathered entry (e, d'): the table at the clamped index word of e, feature d'. -/
private theorem gather_row {α : Type} (x : S10000x128.Idx → α) (idx : IVec S640000x1 32) (e : Fin 640000) (d' : Fin 128) :
    Host.gather gd x idx (ix2 e d') = x (ix2 (clampRow (idx (ix2 e (0 : Fin 1)))) d') := by
  unfold Host.gather
  congr 1
  funext a; refine Fin.ext ?_
  match a with
  | ⟨0, _⟩ =>
    show gd.start (ix2 e d') idx 0 + gd.batchCoord (ix2 e d') 0 + gd.offCoord (ix2 e d') 0
      = min (idx (ix2 e (0 : Fin 1))).toInt.toNat 9999
    rw [gd_start0, gd_batch, gd_off0]
    rfl
  | ⟨1, _⟩ =>
    have hsum : gd.start (ix2 e d') idx 1 + gd.batchCoord (ix2 e d') 1 + gd.offCoord (ix2 e d') 1
        = ((ix2 e d' : S640000x128.Idx) 1).val := by
      rw [gd_start1, gd_batch, gd_off1, Nat.zero_add]
    exact hsum

/-! ## The scatter, coordinate by coordinate

Update entry (e, d') lands at row "start of the window" and column d': the row axis is inserted (its start the index
word read signed, not clamped), the feature axis is the one window axis (start 0). -/

/-- The scatter's dimension numbers. -/
private abbrev sd : ScatterDims S10000x128 S640000x1 S640000x128 := scatter_S10000x128_S640000x1_S640000x128_1_0_0_1

/-- A scatter index has one component, read at (e, 0). -/
private theorem sd_siIdx (j : S640000x128.Idx) (c : Fin sd.scatterDimsToOperandDims.length) :
    sd.siIdx j c = ix2 (j 0) (0 : Fin 1) := by
  funext b; refine Fin.ext ?_
  match b with
  | ⟨0, _⟩ => rfl
  | ⟨1, _⟩ =>
    have hc : c.val < 1 := c.isLt
    show c.val = 0
    omega

/-- On the row axis the window starts at the index word, read signed. -/
private theorem sd_start0 (j : S640000x128.Idx) (idx : IVec S640000x1 32) :
    sd.start j idx 0 = (idx (ix2 (j 0) (0 : Fin 1))).toInt := by
  unfold ScatterDims.start
  rw [dif_pos (show (0 : Fin 2) ∈ sd.scatterDimsToOperandDims from List.mem_singleton.mpr rfl), sd_siIdx]
  rfl

/-- On the feature axis the window starts at 0. -/
private theorem sd_start1 (j : S640000x128.Idx) (idx : IVec S640000x1 32) : sd.start j idx 1 = 0 := by
  unfold ScatterDims.start
  rw [dif_neg (show ¬ (1 : Fin 2) ∈ sd.scatterDimsToOperandDims by decide)]

/-- The row axis is inserted: no window coordinate. -/
private theorem sd_window0 (j : S640000x128.Idx) : sd.window j 0 = 0 := by
  unfold ScatterDims.window
  rw [dif_neg (show ¬ (0 : Fin 2) ∈ sd.sKept by decide)]

/-- The feature axis carries the update's feature coordinate. -/
private theorem sd_window1 (j : S640000x128.Idx) : sd.window j 1 = (j 1).val := by
  unfold ScatterDims.window
  rw [dif_pos (show (1 : Fin 2) ∈ sd.sKept by decide)]
  rfl

/-- Update entry (e, d') lands on (n, d) exactly when the index word of e, read signed, is n and d' = d: the landing
    place is (word, d') when the word lies in [0, 10000), and the entry is dropped otherwise. -/
private theorem lands_iff (idx : IVec S640000x1 32) (e : Fin 640000) (d' : Fin 128) (n : Fin 10000) (d : Fin 128) :
    sd.resultIdx? (ix2 e d') idx = some (ix2 n d) ↔ (idx (ix2 e (0 : Fin 1))).toInt = (n.val : ℤ) ∧ d' = d := by
  have hn := n.isLt
  have hd' := d'.isLt
  unfold ScatterDims.resultIdx?
  split
  · rename_i hin
    rw [Option.some.injEq]
    constructor
    · intro hf
      have h0 := congrArg (fun f => (f 0).val) hf
      have h1 := congrArg (fun f => (f 1).val) hf
      simp only [sd_start0, sd_start1, sd_window0, sd_window1] at h0 h1
      have hin0 := hin 0
      simp only [sd_start0, sd_window0] at hin0
      change ((idx (ix2 e (0 : Fin 1))).toInt + ((0 : ℕ) : ℤ)).toNat = n.val at h0
      change ((0 : ℤ) + (d'.val : ℤ)).toNat = d.val at h1
      change 0 ≤ (idx (ix2 e (0 : Fin 1))).toInt + ((0 : ℕ) : ℤ) ∧ _ at hin0
      refine ⟨by omega, Fin.ext (by omega)⟩
    · rintro ⟨h0, rfl⟩
      funext a; refine Fin.ext ?_
      match a with
      | ⟨0, _⟩ =>
        show (sd.start (ix2 e d') idx 0 + (sd.window (ix2 e d') 0 : ℤ)).toNat = n.val
        rw [sd_start0, sd_window0]
        change ((idx (ix2 e (0 : Fin 1))).toInt + ((0 : ℕ) : ℤ)).toNat = n.val
        omega
      | ⟨1, _⟩ =>
        show (sd.start (ix2 e d') idx 1 + (sd.window (ix2 e d') 1 : ℤ)).toNat = d'.val
        rw [sd_start1, sd_window1]
        change ((0 : ℤ) + (d'.val : ℤ)).toNat = d'.val
        omega
  · rename_i hout
    constructor
    · intro hf; exact absurd hf (by simp)
    · rintro ⟨h0, rfl⟩
      exfalso
      apply hout
      intro a
      match a with
      | ⟨0, _⟩ =>
        show 0 ≤ sd.start (ix2 e d') idx 0 + (sd.window (ix2 e d') 0 : ℤ)
          ∧ sd.start (ix2 e d') idx 0 + (sd.window (ix2 e d') 0 : ℤ) < ((10000 : ℕ) : ℤ)
        rw [sd_start0, sd_window0]
        change 0 ≤ (idx (ix2 e (0 : Fin 1))).toInt + ((0 : ℕ) : ℤ)
          ∧ (idx (ix2 e (0 : Fin 1))).toInt + ((0 : ℕ) : ℤ) < ((10000 : ℕ) : ℤ)
        omega
      | ⟨1, _⟩ =>
        show 0 ≤ sd.start (ix2 e d') idx 1 + (sd.window (ix2 e d') 1 : ℤ)
          ∧ sd.start (ix2 e d') idx 1 + (sd.window (ix2 e d') 1 : ℤ) < ((128 : ℕ) : ℤ)
        rw [sd_start1, sd_window1]
        change 0 ≤ (0 : ℤ) + (d'.val : ℤ) ∧ (0 : ℤ) + (d'.val : ℤ) < ((128 : ℕ) : ℤ)
        omega

/-! ## The aggregate -/

/-- The reference's aggregate at (n, d), with every source word a node number. -/
theorem agg_apply (x0 : (⟨S10000x128, .f32⟩ : BufTy).Contents (Elt Ideal)) (x6 : (⟨S2x640000, .i32⟩ : BufTy).Contents (Elt Ideal))
    (h : Cert.Gin.SrcInRange x6) (n : Fin 10000) (d : Fin 128) :
    val_main_v13 (F := Ideal) x0 x6 (ix2 n d) = Cert.Gin.nbrSum x0 x6 n d := by
  unfold val_main_v13 Host.scatterAdd
  rw [Ideal.hostScatterAdd_def]
  unfold Ideal.hostScatterAdd
  -- the array added into is zero everywhere
  rw [val_main_v11_apply, val_main_cst_apply,
    show (FloatOps.ofBits .f32 0x00000000#32 : Ideal .f32) = 0 from Ideal.ofBits_zero_f32, zero_add]
  -- the updates landing on (n, d), edge by edge and feature by feature
  rw [Finset.sum_filter, sum_idx2]
  unfold Cert.Gin.nbrSum
  refine Finset.sum_congr rfl fun e _ => ?_
  by_cases hdst : Cert.Gin.dstInt x6 e = (n.val : ℤ)
  · -- edge e points at n: of its row, feature d alone lands on (n, d)
    rw [if_pos hdst, Finset.sum_eq_single d]
    · rw [if_pos ((lands_iff _ e d n d).2 ⟨by rw [dst_word]; exact hdst, rfl⟩)]
      unfold val_main_v10
      rw [gather_row, src_word x6 h e]
      rfl
    · intro d' _ hne
      rw [if_neg (fun hl => hne ((lands_iff _ e d' n d).1 hl).2)]
    · intro hnot; exact absurd (Finset.mem_univ d) hnot
  · -- edge e points elsewhere (or at no node): nothing of its row lands on (n, d)
    rw [if_neg hdst]
    refine Finset.sum_eq_zero fun d' _ => ?_
    rw [if_neg (fun hl => hdst (by
      have hw := ((lands_iff _ e d' n d).1 hl).1
      rw [dst_word] at hw
      exact hw))]

end Cert.Gin.R

end
-- ==== Proof.RefValue.lean ====
/-
  The reference program's result is the layer: past the aggregation it scales x by 1 + eps, adds the aggregate, and
  applies the two dense layers, each a product with a weight matrix (at (n, q) the sum over k of the row entry times the
  column entry), a broadcast bias row, and the maximum with a broadcast zero.
-/
import proofs.«409381_j70987219469126_1_alg».proof.Proof.RefAgg
import proofs.«409381_j70987219469126_1_alg».proof.Proof.LibMatmul

noncomputable section

open scoped BigOperators

namespace Cert.Gin.R

open Cert.ReferenceIdeal Cert.ReferenceIdeal.Gen Cert.ReferenceIdeal.Read Idealize.ShloMosaic Idealize.ShloMosaic.ValueIdx

/-- The left operand of a product at (n, q) is read, for the k-th term, at (n, k). -/
private theorem lidx_eq (n : Fin 10000) (q k : Fin 128) : lidx_main_v18 (ix2 n q) k = ix2 n k :=
  funext fun a => Fin.ext (by match a with | ⟨0, _⟩ => rfl | ⟨1, _⟩ => rfl)

/-- The right operand of a product at (n, q) is read, for the k-th term, at (k, q). -/
private theorem ridx_eq (n : Fin 10000) (q k : Fin 128) : ridx_main_v18 (ix2 n q) k = ix2 k q :=
  funext fun a => Fin.ext (by match a with | ⟨0, _⟩ => rfl | ⟨1, _⟩ => rfl)

/-- A bias row broadcast over the nodes is read, at (n, q), at q. -/
private theorem bias_idx (n : Fin 10000) (q : Fin 128) : idx_main_v19 (idx_main_v20 (ix2 n q)) = ix1 q :=
  funext fun a => Fin.ext (by match a with | ⟨0, _⟩ => rfl)

/-- Past the aggregation: (1 + eps) x plus the neighbour sum. -/
private theorem v17_apply (x0 : (⟨S10000x128, .f32⟩ : BufTy).Contents (Elt Ideal)) (x1 : (⟨S_, .f32⟩ : BufTy).Contents (Elt Ideal))
    (x6 : (⟨S2x640000, .i32⟩ : BufTy).Contents (Elt Ideal)) (h : Cert.Gin.SrcInRange x6) (n : Fin 10000) (d : Fin 128) :
    val_main_v17 (F := Ideal) x0 x1 x6 (ix2 n d) = Cert.Gin.combined x0 x1 x6 n d := by
  rw [val_main_v17_apply, val_main_v16_apply, val_main_v15_apply, val_main_v14_apply, val_main_cst_1_apply,
    agg_apply x0 x6 h n d]
  rfl

/-- The first dense layer. -/
private theorem v22_apply (x0 : (⟨S10000x128, .f32⟩ : BufTy).Contents (Elt Ideal)) (x1 : (⟨S_, .f32⟩ : BufTy).Contents (Elt Ideal))
    (x2 : (⟨S128x128, .f32⟩ : BufTy).Contents (Elt Ideal)) (x3 : (⟨S128, .f32⟩ : BufTy).Contents (Elt Ideal))
    (x6 : (⟨S2x640000, .i32⟩ : BufTy).Contents (Elt Ideal)) (h : Cert.Gin.SrcInRange x6) (n : Fin 10000) (q : Fin 128) :
    val_main_v22 (F := Ideal) x0 x1 x2 x3 x6 (ix2 n q)
      = Cert.Gin.dense (Cert.Gin.combined x0 x1 x6) x2 (fun j => x3 (ix1 j)) n q := by
  rw [val_main_v22_apply, val_main_v21_apply, val_main_v18_apply, val_main_v20_apply, val_main_v19_apply,
    val_main_call0_v0_apply, val_main_call0_cst_apply, bias_idx]
  simp only [lidx_eq, ridx_eq, v17_apply x0 x1 x6 h]
  rfl

/-- The reference's result array, with every source word a node number. -/
theorem ref_eq (x0 : (⟨S10000x128, .f32⟩ : BufTy).Contents (Elt Ideal)) (x1 : (⟨S_, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S2x640000, .i32⟩ : BufTy).Contents (Elt Ideal)) (h : Cert.Gin.SrcInRange x6) :
    val_main_v27 (F := Ideal) x0 x1 x2 x3 x4 x5 x6 = Cert.Gin.out x0 x1 x2 x3 x4 x5 x6 := by
  funext i
  obtain ⟨n, q, rfl⟩ : ∃ (n : Fin 10000) (q : Fin 128), i = ix2 n q := ⟨i 0, i 1, eq_ix2 i⟩
  rw [Cert.Gin.out_apply, val_main_v27_apply, val_main_v26_apply, val_main_v23_apply, val_main_v25_apply,
    val_main_v24_apply, val_main_call1_v0_apply, val_main_call1_cst_apply,
    show idx_main_v24 (idx_main_v25 (ix2 n q)) = ix1 q from bias_idx n q]
  simp only [show ∀ k, lidx_main_v23 (ix2 n q) k = ix2 n k from lidx_eq n q,
    show ∀ k, ridx_main_v23 (ix2 n q) k = ix2 k q from ridx_eq n q, v22_apply x0 x1 x2 x3 x6 h]
  rfl

end Cert.Gin.R

end
-- ==== Proof.Pre.lean ====
/-
  What the precondition says of the edge list: its last conjunct is the conjunction, over the 640000 source words
  (row 0 of the edge list, flattened), of "the word is at least 0 and below 10000", both comparisons signed. So when
  the precondition is all ones every source word, read signed, is a node number.
-/
import proofs.«409381_j70987219469126_1_alg».proof.Pre_finite_inputs
import proofs.«409381_j70987219469126_1_alg».proof.Proof.Spec
import Idealize.ShloMosaic.Lib.StableHlo.Predicate
import Idealize.ShloMosaic.Lib.ReduceAll
import Idealize.ShloMosaic.Lib.Pipeline.Value

noncomputable section

namespace Cert.Gin

open Idealize.ShloMosaic Idealize.ShloMosaic.ValueIdx

variable [Cert.Pre_finite_inputs.Facts]

/-- The scalar shape has one index. -/
private instance scalarIdxSubsingleton : Subsingleton Cert.Pre_finite_inputs.S_.Idx :=
  ⟨fun _ _ => funext fun d => d.elim0⟩

/-- Row 0 of the edge list, flattened, read at position e, is the source word of edge e: position e of the flat
    row is position 0 * 640000 + e of the one-row block, and the block starts at the array's corner. -/
private theorem row0_apply (x6 : IVec Cert.Pre_finite_inputs.S2x640000 32)
    (hs : Cert.Pre_finite_inputs.S2x640000.Slices ![0, 0] Cert.Pre_finite_inputs.S1x640000)
    (hc : Cert.Pre_finite_inputs.S1x640000.ShapeCasts Cert.Pre_finite_inputs.S640000) (e : Fin 640000) :
    shapeCast Cert.Pre_finite_inputs.S640000
        (extractStridedSlice Cert.Pre_finite_inputs.S1x640000 ![0, 0] x6 hs) hc (ix1 e)
      = x6 (ix2 (0 : Fin 2) e) := by
  refine (shapeCast_apply _ hc (ix1 e) (ix2 (0 : Fin 1) e) ?_).trans ?_
  · rw [Shape.rowMajor_val_two, Shape.rowMajor_val_one]
    show 0 * 640000 + e.val = e.val
    omega
  · refine extractStridedSlice_apply _ x6 hs _ (ix2 (0 : Fin 2) e) fun a => ?_
    match a with
    | ⟨0, _⟩ => rfl
    | ⟨1, _⟩ => show e.val = 0 + e.val; omega

/-- The precondition holds only of an edge list whose source words are node numbers. -/
theorem src_in_range {F : FTy → Type} [FloatOps F]
    (x0 : FVec F Cert.Pre_finite_inputs.S10000x128 .f32) (x1 : FVec F Cert.Pre_finite_inputs.S_ .f32)
    (x2 : FVec F Cert.Pre_finite_inputs.S128x128 .f32) (x3 : FVec F Cert.Pre_finite_inputs.S128 .f32)
    (x4 : FVec F Cert.Pre_finite_inputs.S128x128 .f32) (x5 : FVec F Cert.Pre_finite_inputs.S128 .f32)
    (x6 : IVec Cert.Pre_finite_inputs.S2x640000 32)
    (h : Cert.Pre_finite_inputs.fn (F := F) x0 x1 x2 x3 x4 x5 x6 = fun _ => 1#1) : SrcInRange x6 := by
  intro e
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  rw [row0_apply] at hge' hlt'
  -- a broadcast constant reads the constant at every position
  change (0#32 : BitVec 32).toInt ≤ _ at hge'
  change _ < (10000#32 : BitVec 32).toInt at hlt'
  have z : (0#32 : BitVec 32).toInt = 0 := by decide
  have t : (10000#32 : BitVec 32).toInt = 10000 := by decide
  rw [z] at hge'
  rw [t] at hlt'
  exact ⟨hge', hlt'⟩

end Cert.Gin

end
-- ==== Proof.lean ====
/-
  One layer of a graph isomorphism network: the kernel program against its reference, over the extended reals.

  The statement carries, beside the finiteness of the float arguments, that every source word of the edge list is a
  node number (0 ≤ src < 10000, signed): outside that range the reference's gather wraps or clamps the word into the
  table while the kernel's comparison with the row numbers selects no row.

  Both programs end with the layer's one function of the arguments (Proof/Spec.lean):
  the kernel program by its value run (Proof/KRun.lean) read through the update kernel's store, the host operations
  between the kernels, and the aggregation kernel's accumulation over its grid (Proof/KernelValue.lean); the reference
  by its run read one operation at a time, the gather and the scatter-add by hand (Proof/RefValue.lean). The frames of
  the two kernel programs are the generated ones; the reference's is its run with the result dropped; the ideal pass
  rewrote nothing.
-/
import proofs.«409381_j70987219469126_1_alg».proof.Defs
import proofs.«409381_j70987219469126_1_alg».proof.Proof.Gen.Kernel
import proofs.«409381_j70987219469126_1_alg».proof.Proof.Gen.Kernel.Skeleton
import proofs.«409381_j70987219469126_1_alg».proof.Proof.Gen.Kernel.Launch
import proofs.«409381_j70987219469126_1_alg».proof.Proof.Gen.Kernel.Points
import proofs.«409381_j70987219469126_1_alg».proof.Proof.Gen.Kernel.Frame
import proofs.«409381_j70987219469126_1_alg».proof.Proof.Gen.KernelIdeal
import proofs.«409381_j70987219469126_1_alg».proof.Proof.Gen.KernelIdeal.Skeleton
import proofs.«409381_j70987219469126_1_alg».proof.Proof.Gen.KernelIdeal.Launch
import proofs.«409381_j70987219469126_1_alg».proof.Proof.Gen.KernelIdeal.Points
import proofs.«409381_j70987219469126_1_alg».proof.Proof.Gen.KernelIdeal.Frame
import proofs.«409381_j70987219469126_1_alg».proof.Proof.Gen.ReferenceIdeal
import proofs.«409381_j70987219469126_1_alg».proof.Proof.Gen.Pre_finite_inputs
import proofs.«409381_j70987219469126_1_alg».proof.Proof.Gen.ReferenceIdeal.Run
import proofs.«409381_j70987219469126_1_alg».proof.Proof.Gen.ReferenceIdeal.Read
import proofs.«409381_j70987219469126_1_alg».proof.Proof.KRun
import proofs.«409381_j70987219469126_1_alg».proof.Proof.KernelValue
import proofs.«409381_j70987219469126_1_alg».proof.Proof.RefValue
import proofs.«409381_j70987219469126_1_alg».proof.Proof.Pre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's function of arguments that agree. -/
theorem algebraic : Cert.algebraic_KernelIdeal_ReferenceIdeal := by
  intro m ρ m' ρ' hpre hagree
  have hsrc : ∀ c : Dev Cert.KernelIdeal.nD, Cert.Gin.SrcInRange
      (m ((c.tc : Thread Cert.KernelIdeal.nD Cert.KernelIdeal.τ).loc Cert.KernelIdeal.main_arg6)) :=
    fun c => Cert.Gin.src_in_range _ _ _ _ _ _ _ (hpre c)
  refine ⟨fun c => Cert.Gin.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gin.K.value m ρ c (hsrc c)), (h c).2⟩)
      (Cert.KernelIdeal.Gen.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq,
      (hagree c).1, (hagree c).2.1, (hagree c).2.2.1, (hagree c).2.2.2.1, (hagree c).2.2.2.2.1, (hagree c).2.2.2.2.2.1,
      (hagree c).2.2.2.2.2.2]
    exact Cert.Gin.R.ref_eq _ _ _ _ _ _ _ (hsrc c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
